-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_
  bcast_S_S64x4096 : S_.BroadcastsInDim S64x4096 (![] : Fin 0 → Fin S64x4096.rank)
  reducesTo_S64x4096_S_d0_1 : S64x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S4096 .f32) (main_arg8 : FVec F S4096x128 .f32) (main_arg9 : FVec F S128 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x128 .f32 := Host.absf main_arg8
  let main_cst_14 : FVec F S_ .f32 := constant S_ .f32 0x7F800000#32
  let main_v40 : FVec F S4096x128 .f32 := broadcastInDim S4096x128 ![] bcast_S_S4096x128 main_cst_14
  let main_v41 : IVec S4096x128 1 := cmpf .olt main_v39 main_v40
  let main_c_15 : IVec S_ 1 := constantI S_ 1 1#1
  let main_v42 : IVec S_ 1 := (fun x v => Host.reduce IntOp.andi x v reducesTo_S4096x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S4096x32 .f32) (main_arg5 : FVec F S32 .f32) (main_arg6 : FVec F S64x4096 .f32) (main_arg7 : FVec F S4096 .f32) (main_arg8 : FVec F S4096x128 .f32) (main_arg9 : FVec F S128 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x4096 .f32 := Host.absf main_arg6
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x32 .f32) (main_arg1 : FVec F S16384x32 .f32) (main_arg2 : FVec F S32x4096 .f32) (main_arg3 : FVec F S4096 .f32) (main_arg4 : FVec F S4096x32 .f32) (main_arg5 : FVec F S32 .f32) (main_arg6 : FVec F S64x4096 .f32) (main_arg7 : FVec F S4096 .f32) (main_arg8 : FVec F S4096x128 .f32) (main_arg9 : FVec F S128 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S32x4096 .f32 := Host.absf main_arg2
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩
abbrev S16384x1 : Shape := ⟨2, ![16384, 1]⟩
abbrev S16384x33 : Shape := ⟨2, ![16384, 33]⟩
abbrev S1x4096 : Shape := ⟨2, ![1, 4096]⟩
abbrev S33x4096 : Shape := ⟨2, ![33, 4096]⟩
abbrev S65x4096 : Shape := ⟨2, ![65, 4096]⟩
abbrev S1x32 : Shape := ⟨2, ![1, 32]⟩
abbrev S1x128 : Shape := ⟨2, ![1, 128]⟩
abbrev S16384x128 : Shape := ⟨2, ![16384, 128]⟩
abbrev S512x33 : Shape := ⟨2, ![512, 33]⟩
abbrev S512x128 : Shape := ⟨2, ![512, 128]⟩
abbrev S1024x33 : Shape := ⟨2, ![1024, 33]⟩
abbrev S33x512 : Shape := ⟨2, ![33, 512]⟩
abbrev S1024x512 : Shape := ⟨2, ![1024, 512]⟩
abbrev S512x32 : Shape := ⟨2, ![512, 32]⟩
abbrev S1024x32 : Shape := ⟨2, ![1024, 32]⟩
abbrev S512x1 : Shape := ⟨2, ![512, 1]⟩
abbrev S512x65 : Shape := ⟨2, ![512, 65]⟩
abbrev S65x512 : Shape := ⟨2, ![65, 512]⟩
abbrev S512x512 : Shape := ⟨2, ![512, 512]⟩

abbrev nBuf : Space → Nat
  | .hbm => 27
  | .vmem => 12
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S_, .f32⟩
  | .hbm, ⟨11, _⟩ => ⟨S16384x1, .f32⟩
  | .hbm, ⟨12, _⟩ => ⟨S16384x33, .f32⟩
  | .hbm, ⟨13, _⟩ => ⟨S16384x33, .bf16⟩
  | .hbm, ⟨14, _⟩ => ⟨S16384x33, .f32⟩
  | .hbm, ⟨15, _⟩ => ⟨S16384x33, .bf16⟩
  | .hbm, ⟨16, _⟩ => ⟨S1x4096, .f32⟩
  | .hbm, ⟨17, _⟩ => ⟨S33x4096, .f32⟩
  | .hbm, ⟨18, _⟩ => ⟨S33x4096, .bf16⟩
  | .hbm, ⟨19, _⟩ => ⟨S1x4096, .f32⟩
  | .hbm, ⟨20, _⟩ => ⟨S65x4096, .f32⟩
  | .hbm, ⟨21, _⟩ => ⟨S65x4096, .bf16⟩
  | .hbm, ⟨22, _⟩ => ⟨S4096x32, .bf16⟩
  | .hbm, ⟨23, _⟩ => ⟨S4096x128, .bf16⟩
  | .hbm, ⟨24, _⟩ => ⟨S1x32, .f32⟩
  | .hbm, ⟨25, _⟩ => ⟨S1x128, .f32⟩
  | .hbm, ⟨26, _⟩ => ⟨S16384x128, .f32⟩
  | .local _ .vmem, ⟨0, _⟩ => ⟨S512x33, .bf16⟩
  | .local _ .vmem, ⟨1, _⟩ => ⟨S512x33, .bf16⟩
  | .local _ .vmem, ⟨2, _⟩ => ⟨S512x33, .bf16⟩
  | .local _ .vmem, ⟨3, _⟩ => ⟨S512x33, .bf16⟩
  | .local _ .vmem, ⟨4, _⟩ => ⟨S33x4096, .bf16⟩
  | .local _ .vmem, ⟨5, _⟩ => ⟨S4096x32, .bf16⟩
  | .local _ .vmem, ⟨6, _⟩ => ⟨S1x32, .f32⟩
  | .local _ .vmem, ⟨7, _⟩ => ⟨S65x4096, .bf16⟩
  | .local _ .vmem, ⟨8, _⟩ => ⟨S4096x128, .bf16⟩
  | .local _ .vmem, ⟨9, _⟩ => ⟨S1x128, .f32⟩
  | .local _ .vmem, ⟨10, _⟩ => ⟨S512x128, .f32⟩
  | .local _ .vmem, ⟨11, _⟩ => ⟨S512x128, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x33 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x33 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S33x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S65x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S16384x1 : S_.BroadcastsInDim S16384x1 (![] : Fin 0 → Fin S16384x1.rank)
  concatenates_S16384x32_S16384x1_S16384x33_d1 : Shape.Concatenates [S16384x32, S16384x1] S16384x33 1
  bitsLt_bf16_f32 : FTy.bits .bf16 < FTy.bits .f32
  bcast_S4096_S1x4096_1 : S4096.BroadcastsInDim S1x4096 (![1] : Fin 1 → Fin S1x4096.rank)
  concatenates_S32x4096_S1x4096_S33x4096_d0 : Shape.Concatenates [S32x4096, S1x4096] S33x4096 0
  concatenates_S64x4096_S1x4096_S65x4096_d0 : Shape.Concatenates [S64x4096, S1x4096] S65x4096 0
  shapeCasts_S32_S1x32 : S32.ShapeCasts S1x32
  shapeCasts_S128_S1x128 : S128.ShapeCasts S1x128
  inb_S512x33_S512x33_0_0 : ∀ a, (![0, 0] : Fin 2 → Nat) a + S512x33.size a ≤ S512x33.size a
  h_S512x33 : 0 < S512x33.numel
  shapeCasts_S512x33_S512x33 : S512x33.ShapeCasts S512x33
  concatenates_S512x33_S512x33_S1024x33_d0 : Shape.Concatenates [S512x33, S512x33] S1024x33 0
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S33x4096_S33x512_0_0 : ∀ a, (![0, 0] : Fin 2 → Nat) a + S33x512.size a ≤ S33x4096.size a
  h_S33x512 : 0 < S33x512.numel
  shapeCasts_S33x512_S33x512 : S33x512.ShapeCasts S33x512
  inb_S4096x32_S512x32_0_0 : ∀ a, (![0, 0] : Fin 2 → Nat) a + S512x32.size a ≤ S4096x32.size a
  h_S512x32 : 0 < S512x32.numel
  shapeCasts_S512x32_S512x32 : S512x32.ShapeCasts S512x32
  broadcasts_S1x32_S1024x32 : S1x32.Broadcasts S1024x32
  inb_S33x4096_S33x512_0_512 : ∀ a, (![0, 512] : Fin 2 → Nat) a + S33x512.size a ≤ S33x4096.size a
  inb_S4096x32_S512x32_512_0 : ∀ a, (![512, 0] : Fin 2 → Nat) a + S512x32.size a ≤ S4096x32.size a
  inb_S33x4096_S33x512_0_1024 : ∀ a, (![0, 1024] : Fin 2 → Nat) a + S33x512.size a ≤ S33x4096.size a
  inb_S4096x32_S512x32_1024_0 : ∀ a, (![1024, 0] : Fin 2 → Nat) a + S512x32.size a ≤ S4096x32.size a
  inb_S33x4096_S33x512_0_1536 : ∀ a, (![0, 1536] : Fin 2 → Nat) a + S33x512.size a ≤ S33x4096.size a
  inb_S4096x32_S512x32_1536_0 : ∀ a, (![1536, 0] : Fin 2 → Nat) a + S512x32.size a ≤ S4096x32.size a
  inb_S33x4096_S33x512_0_2048 : ∀ a, (![0, 2048] : Fin 2 → Nat) a + S33x512.size a ≤ S33x4096.size a
  inb_S4096x32_S512x32_2048_0 : ∀ a, (![2048, 0] : Fin 2 → Nat) a + S512x32.size a ≤ S4096x32.size a
  inb_S33x4096_S33x512_0_2560 : ∀ a, (![0, 2560] : Fin 2 → Nat) a + S33x512.size a ≤ S33x4096.size a
  inb_S4096x32_S512x32_2560_0 : ∀ a, (![2560, 0] : Fin 2 → Nat) a + S512x32.size a ≤ S4096x32.size a
  inb_S33x4096_S33x512_0_3072 : ∀ a, (![0, 3072] : Fin 2 → Nat) a + S33x512.size a ≤ S33x4096.size a
  inb_S4096x32_S512x32_3072_0 : ∀ a, (![3072, 0] : Fin 2 → Nat) a + S512x32.size a ≤ S4096x32.size a
  inb_S33x4096_S33x512_0_3584 : ∀ a, (![0, 3584] : Fin 2 → Nat) a + S33x512.size a ≤ S33x4096.size a
  inb_S4096x32_S512x32_3584_0 : ∀ a, (![3584, 0] : Fin 2 → Nat) a + S512x32.size a ≤ S4096x32.size a
  slices_S1024x32_o0_0_S512x32 : S1024x32.Slices ![0, 0] S512x32
  slices_S1024x32_o512_0_S512x32 : S1024x32.Slices ![512, 0] S512x32
  concatenates_S512x32_S512x32_S512x1_S512x65_d1 : Shape.Concatenates [S512x32, S512x32, S512x1] S512x65 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S65x4096_S65x512_0_0 : ∀ a, (![0, 0] : Fin 2 → Nat) a + S65x512.size a ≤ S65x4096.size a
  h_S65x512 : 0 < S65x512.numel
  shapeCasts_S65x512_S65x512 : S65x512.ShapeCasts S65x512
  inb_S4096x128_S512x128_0_0 : ∀ a, (![0, 0] : Fin 2 → Nat) a + S512x128.size a ≤ S4096x128.size a
  h_S512x128 : 0 < S512x128.numel
  shapeCasts_S512x128_S512x128 : S512x128.ShapeCasts S512x128
  broadcasts_S1x128_S512x128 : S1x128.Broadcasts S512x128
  inb_S65x4096_S65x512_0_512 : ∀ a, (![0, 512] : Fin 2 → Nat) a + S65x512.size a ≤ S65x4096.size a
  inb_S4096x128_S512x128_512_0 : ∀ a, (![512, 0] : Fin 2 → Nat) a + S512x128.size a ≤ S4096x128.size a
  inb_S65x4096_S65x512_0_1024 : ∀ a, (![0, 1024] : Fin 2 → Nat) a + S65x512.size a ≤ S65x4096.size a
  inb_S4096x128_S512x128_1024_0 : ∀ a, (![1024, 0] : Fin 2 → Nat) a + S512x128.size a ≤ S4096x128.size a
  inb_S65x4096_S65x512_0_1536 : ∀ a, (![0, 1536] : Fin 2 → Nat) a + S65x512.size a ≤ S65x4096.size a
  inb_S4096x128_S512x128_1536_0 : ∀ a, (![1536, 0] : Fin 2 → Nat) a + S512x128.size a ≤ S4096x128.size a
  inb_S65x4096_S65x512_0_2048 : ∀ a, (![0, 2048] : Fin 2 → Nat) a + S65x512.size a ≤ S65x4096.size a
  inb_S4096x128_S512x128_2048_0 : ∀ a, (![2048, 0] : Fin 2 → Nat) a + S512x128.size a ≤ S4096x128.size a
  inb_S65x4096_S65x512_0_2560 : ∀ a, (![0, 2560] : Fin 2 → Nat) a + S65x512.size a ≤ S65x4096.size a
  inb_S4096x128_S512x128_2560_0 : ∀ a, (![2560, 0] : Fin 2 → Nat) a + S512x128.size a ≤ S4096x128.size a
  inb_S65x4096_S65x512_0_3072 : ∀ a, (![0, 3072] : Fin 2 → Nat) a + S65x512.size a ≤ S65x4096.size a
  inb_S4096x128_S512x128_3072_0 : ∀ a, (![3072, 0] : Fin 2 → Nat) a + S512x128.size a ≤ S4096x128.size a
  inb_S65x4096_S65x512_0_3584 : ∀ a, (![0, 3584] : Fin 2 → Nat) a + S65x512.size a ≤ S65x4096.size a
  inb_S4096x128_S512x128_3584_0 : ∀ a, (![3584, 0] : Fin 2 → Nat) a + S512x128.size a ≤ S4096x128.size a
  inb_S512x128_S512x128_0_0 : ∀ a, (![0, 0] : Fin 2 → Nat) a + S512x128.size a ≤ S512x128.size a
  dot_S1024x33_S33x512_S1024x512_1_0_0_1_n_n_wf : DotDims.WF S1024x33 S33x512 S1024x512 [1] [0] [0] [1] [] []
  dot_S1024x512_S512x32_S1024x32_1_0_0_1_n_n_wf : DotDims.WF S1024x512 S512x32 S1024x32 [1] [0] [0] [1] [] []
  dot_S512x65_S65x512_S512x512_1_0_0_1_n_n_wf : DotDims.WF S512x65 S65x512 S512x512 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x33.size a ≤ S16384x33.size a
  hwx0_0 : ∀ i : grid0.Coords, EltTy.bits .bf16 = 32 ∨ (Rect.block (s := S16384x33) S512x33.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x33.size a ≤ S16384x33.size a
  hwx0_1 : ∀ i : grid0.Coords, EltTy.bits .bf16 = 32 ∨ (Rect.block (s := S16384x33) S512x33.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S33x4096.size a ≤ S33x4096.size a
  hwx0_2 : ∀ i : grid0.Coords, EltTy.bits .bf16 = 32 ∨ (Rect.block (s := S33x4096) S33x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x32.size a ≤ S4096x32.size a
  hwx0_3 : ∀ i : grid0.Coords, EltTy.bits .bf16 = 32 ∨ (Rect.block (s := S4096x32) S4096x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S65x4096.size a ≤ S65x4096.size a
  hwx0_5 : ∀ i : grid0.Coords, EltTy.bits .bf16 = 32 ∨ (Rect.block (s := S65x4096) S65x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S4096x128.size a
  hwx0_6 : ∀ i : grid0.Coords, EltTy.bits .bf16 = 32 ∨ (Rect.block (s := S4096x128) S4096x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S16384x128.size a
  hwx0_8 : ∀ i : grid0.Coords, EltTy.bits .f32 = 32 ∨ (Rect.block (s := S16384x128) S512x128.size (cc0_transform_8 i) (hinb0_8 i)).WholeWords (EltTy.packing .f32)

variable [Facts₀]

def dot_S1024x33_S33x512_S1024x512_1_0_0_1_n_n : DotDims S1024x33 S33x512 S1024x512 where
  lhsContracting := [1]
  rhsContracting := [0]
  lhsNonContracting := [0]
  rhsNonContracting := [1]
  lhsBatch := []
  rhsBatch := []
  wf := dot_S1024x33_S33x512_S1024x512_1_0_0_1_n_n_wf
def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def dot_S512x65_S65x512_S512x512_1_0_0_1_n_n : DotDims S512x65 S65x512 S512x512 where
  lhsContracting := [1]
  rhsContracting := [0]
  lhsNonContracting := [0]
  rhsNonContracting := [1]
  lhsBatch := []
  rhsBatch := []
  wf := dot_S512x65_S65x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v2) S512x33.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x33.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S33x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S4096x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S65x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S4096x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S512x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S16384x4096 : Shape := ⟨2, ![16384, 4096]⟩
abbrev S1x4096 : Shape := ⟨2, ![1, 4096]⟩
abbrev S_ : Shape := ⟨0, ![]⟩
abbrev S1x32 : Shape := ⟨2, ![1, 32]⟩
abbrev S16384x64 : Shape := ⟨2, ![16384, 64]⟩
abbrev S16384x128 : Shape := ⟨2, ![16384, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S16384x4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x32, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384x32, .f32⟩
  | .hbm, ⟨23, _⟩ => ⟨S16384x32, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x32, .f32⟩
  | .hbm, ⟨32, _⟩ => ⟨S1x32, .f32⟩
  | .hbm, ⟨33, _⟩ => ⟨S16384x32, .f32⟩
  | .hbm, ⟨34, _⟩ => ⟨S16384x32, .f32⟩
  | .hbm, ⟨35, _⟩ => ⟨S_, .f32⟩
  | .hbm, ⟨36, _⟩ => ⟨S16384x32, .f32⟩
  | .hbm, ⟨37, _⟩ => ⟨S16384x32, .f32⟩
  | .hbm, ⟨38, _⟩ => ⟨S16384x64, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S16384x128, .f32⟩
  | .hbm, ⟨47, _⟩ => ⟨S1x128, .f32⟩
  | .hbm, ⟨48, _⟩ => ⟨S16384x128, .f32⟩
  | .hbm, ⟨49, _⟩ => ⟨S16384x128, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call3_cst : Ref sig .tc := ⟨.hbm, 35, rfl⟩
abbrev main_call3_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call4_cst : Ref sig .tc := ⟨.hbm, 43, rfl⟩
abbrev main_call4_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  concatenates_S16384x32_S16384x32_S16384x64_d1 : Shape.Concatenates [S16384x32, S16384x32] S16384x64 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x32_S32x4096_S16384x4096_1_0_0_1_n_n_wf : DotDims.WF S16384x32 S32x4096 S16384x4096 [1] [0] [0] [1] [] []
  dot_S16384x4096_S4096x32_S16384x32_1_0_0_1_n_n_wf : DotDims.WF S16384x4096 S4096x32 S16384x32 [1] [0] [0] [1] [] []
  dot_S16384x64_S64x4096_S16384x4096_1_0_0_1_n_n_wf : DotDims.WF S16384x64 S64x4096 S16384x4096 [1] [0] [0] [1] [] []
  dot_S16384x4096_S4096x128_S16384x128_1_0_0_1_n_n_wf : DotDims.WF S16384x4096 S4096x128 S16384x128 [1] [0] [0] [1] [] []

variable [Facts₀]

def dot_S16384x32_S32x4096_S16384x4096_1_0_0_1_n_n : DotDims S16384x32 S32x4096 S16384x4096 where
  lhsContracting := [1]
  rhsContracting := [0]
  lhsNonContracting := [0]
  rhsNonContracting := [1]
  lhsBatch := []
  rhsBatch := []
  wf := dot_S16384x32_S32x4096_S16384x4096_1_0_0_1_n_n_wf
def dot_S16384x4096_S4096x32_S16384x32_1_0_0_1_n_n : DotDims S16384x4096 S4096x32 S16384x32 where
  lhsContracting := [1]
  rhsContracting := [0]
  lhsNonContracting := [0]
  rhsNonContracting := [1]
  lhsBatch := []
  rhsBatch := []
  wf := dot_S16384x4096_S4096x32_S16384x32_1_0_0_1_n_n_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf
def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf

class Facts : Prop extends Facts₀ where

variable [Facts]
-- ==== Proof.NetMath.lean ====
/-
  The mathematics of this certificate, with no program in sight.

  Both programs compute, for each batch row `r` and each of the 128 outputs `q`, the value of a four-layer
  network on the pair of rows `s = state[r, :]`, `n = next_state[r, :]`:

    hidden x k   = max (∑ l < 32, x l · W1 l k + b1 k) 0                      (k < 4096)
    feature x j  = max (∑ k < 4096, hidden x k · W2 k j + b2 j) 0             (j < 32)
    joined l     = feature s l for l < 32, feature n (l - 32) for 32 ≤ l < 64
    hidden3 k    = max (∑ l < 64, joined l · W3 l k + b3 k) 0                 (k < 4096)
    output q     = ∑ k < 4096, hidden3 k · W4 k q + b4 q

  on the extended reals. The reference spells it exactly so (`net`). The kernel arranges it differently
  (`kNet`): a bias is not added but is the last ROW of its weight matrix, met by a trailing entry 1 of the
  input row (33 = 32 + 1 and 65 = 64 + 1 terms in the first and third sums); and a sum over 4096 terms is
  accumulated onto the bias in eight consecutive chunks of 512 terms. The two are equal because the extended
  reals are a commutative monoid under addition (`⊤ + ⊥ = ⊥` included) and `1 · b = b` there: nothing below
  distributes a product over a sum or cancels, so no finiteness is used.
-/
import Mathlib.Data.EReal.Basic
import Mathlib.Algebra.BigOperators.Fin
import Mathlib.Logic.Equiv.Fin.Basic

noncomputable section

open scoped BigOperators

namespace Siamese

/-! ## A sum of 4096 terms taken in eight chunks of 512 -/

/-- The `c`-th chunk's partial sum: terms `512 c` to `512 c + 511`. -/
def part (f : Fin 4096 → EReal) (c : Fin 8) : EReal :=
  ∑ k : Fin 512, f ⟨512 * c.val + k.val, by have := c.isLt; have := k.isLt; omega⟩

/-- The eight partial sums added, in order, onto a starting value `b`. -/
def chunked (b : EReal) (f : Fin 4096 → EReal) : EReal :=
  b + part f 0 + part f 1 + part f 2 + part f 3 + part f 4 + part f 5 + part f 6 + part f 7

/-- The whole sum is the sum of its eight chunks. -/
theorem sum_eq_sum_part (f : Fin 4096 → EReal) : ∑ k, f k = ∑ c : Fin 8, part f c := by
  calc ∑ k : Fin 4096, f k
      = ∑ p : Fin 8 × Fin 512, f (finProdFinEquiv p) :=
        (Equiv.sum_comp (finProdFinEquiv (m := 8) (n := 512)) f).symm
    _ = ∑ c : Fin 8, ∑ k : Fin 512, f (finProdFinEquiv (c, k)) := Fintype.sum_prod_type _
    _ = ∑ c : Fin 8, part f c := by
        refine Finset.sum_congr rfl fun c _ => Finset.sum_congr rfl fun k _ => congrArg f (Fin.ext ?_)
        show k.val + 512 * c.val = 512 * c.val + k.val
        omega

/-- Accumulating the chunks onto `b` gives the whole sum plus `b`. -/
theorem chunked_eq (b : EReal) (f : Fin 4096 → EReal) : chunked b f = ∑ k, f k + b := by
  rw [sum_eq_sum_part, Fin.sum_univ_eight]
  unfold chunked
  ac_rfl

/-! ## A bias carried as a last row, met by a trailing one -/

/-- A row with a `1` appended. -/
def withOne {n : ℕ} (x : Fin n → EReal) (l : Fin (n + 1)) : EReal :=
  if h : l.val < n then x ⟨l.val, h⟩ else 1

/-- A weight matrix with the bias appended as its last row. -/
def withBias {n : ℕ} (W : Fin n → Fin 4096 → EReal) (b : Fin 4096 → EReal) (l : Fin (n + 1)) (k : Fin 4096) : EReal :=
  if h : l.val < n then W ⟨l.val, h⟩ k else b k

/-- A sum over `n + 1` terms whose first `n` factors are `x`, `w` and whose last is `1 · b`. -/
theorem sum_succ_bias {n : ℕ} (xa wa : Fin (n + 1) → EReal) (x w : Fin n → EReal) (b : EReal)
    (hx : ∀ l : Fin n, xa l.castSucc = x l) (hw : ∀ l : Fin n, wa l.castSucc = w l)
    (hx1 : xa (Fin.last n) = 1) (hwb : wa (Fin.last n) = b) :
    ∑ l, xa l * wa l = ∑ l, x l * w l + b := by
  rw [Fin.sum_univ_castSucc, hx1, hwb, one_mul]
  exact congrArg (· + b) (Finset.sum_congr rfl fun l _ => by rw [hx l, hw l])

theorem withOne_castSucc {n : ℕ} (x : Fin n → EReal) (l : Fin n) : withOne x l.castSucc = x l := by
  unfold withOne; rw [dif_pos (by exact l.isLt)]; rfl

theorem withOne_last {n : ℕ} (x : Fin n → EReal) : withOne x (Fin.last n) = 1 := by
  unfold withOne; rw [dif_neg (by simp)]

theorem withBias_castSucc {n : ℕ} (W : Fin n → Fin 4096 → EReal) (b : Fin 4096 → EReal) (l : Fin n) (k : Fin 4096) :
    withBias W b l.castSucc k = W l k := by
  unfold withBias; rw [dif_pos (by exact l.isLt)]; rfl

theorem withBias_last {n : ℕ} (W : Fin n → Fin 4096 → EReal) (b : Fin 4096 → EReal) (k : Fin 4096) :
    withBias W b (Fin.last n) k = b k := by
  unfold withBias; rw [dif_neg (by simp)]

/-! ## The network as the reference spells it -/

def hidden (W1 : Fin 32 → Fin 4096 → EReal) (b1 : Fin 4096 → EReal) (x : Fin 32 → EReal) (k : Fin 4096) : EReal :=
  max (∑ l, x l * W1 l k + b1 k) 0

def feature (W1 : Fin 32 → Fin 4096 → EReal) (b1 : Fin 4096 → EReal) (W2 : Fin 4096 → Fin 32 → EReal)
    (b2 : Fin 32 → EReal) (x : Fin 32 → EReal) (j : Fin 32) : EReal :=
  max (∑ k, hidden W1 b1 x k * W2 k j + b2 j) 0

/-- Two feature rows side by side. -/
def joined (a b : Fin 32 → EReal) (l : Fin 64) : EReal :=
  if h : l.val < 32 then a ⟨l.val, h⟩ else b ⟨l.val - 32, by have := l.isLt; omega⟩

def hidden3 (W3 : Fin 64 → Fin 4096 → EReal) (b3 : Fin 4096 → EReal) (f : Fin 64 → EReal) (k : Fin 4096) : EReal :=
  max (∑ l, f l * W3 l k + b3 k) 0

def output (W4 : Fin 4096 → Fin 128 → EReal) (b4 : Fin 128 → EReal) (h : Fin 4096 → EReal) (q : Fin 128) : EReal :=
  ∑ k, h k * W4 k q + b4 q

/-- The whole network on the pair of rows `s`, `n`, at output `q`. -/
def net (W1 : Fin 32 → Fin 4096 → EReal) (b1 : Fin 4096 → EReal) (W2 : Fin 4096 → Fin 32 → EReal) (b2 : Fin 32 → EReal)
    (W3 : Fin 64 → Fin 4096 → EReal) (b3 : Fin 4096 → EReal) (W4 : Fin 4096 → Fin 128 → EReal) (b4 : Fin 128 → EReal)
    (s n : Fin 32 → EReal) (q : Fin 128) : EReal :=
  output W4 b4 (hidden3 W3 b3 (joined (feature W1 b1 W2 b2 s) (feature W1 b1 W2 b2 n))) q

/-! ## The network as the kernel arranges it -/

def kHidden (w1 : Fin 33 → Fin 4096 → EReal) (x : Fin 33 → EReal) (k : Fin 4096) : EReal :=
  max (∑ l, x l * w1 l k) 0

def kFeature (w1 : Fin 33 → Fin 4096 → EReal) (w2 : Fin 4096 → Fin 32 → EReal) (b2 : Fin 32 → EReal)
    (x : Fin 33 → EReal) (j : Fin 32) : EReal :=
  max (chunked (b2 j) fun k => kHidden w1 x k * w2 k j) 0

/-- Two feature rows side by side, then a `1`. -/
def kJoined (a b : Fin 32 → EReal) (l : Fin 65) : EReal :=
  if h : l.val < 32 then a ⟨l.val, h⟩
  else if h' : l.val < 64 then b ⟨l.val - 32, by omega⟩ else 1

def kHidden3 (w3 : Fin 65 → Fin 4096 → EReal) (u : Fin 65 → EReal) (k : Fin 4096) : EReal :=
  max (∑ l, u l * w3 l k) 0

def kOutput (w4 : Fin 4096 → Fin 128 → EReal) (b4 : Fin 128 → EReal) (h : Fin 4096 → EReal) (q : Fin 128) : EReal :=
  chunked (b4 q) fun k => h k * w4 k q

def kNet (w1 : Fin 33 → Fin 4096 → EReal) (w2 : Fin 4096 → Fin 32 → EReal) (b2 : Fin 32 → EReal)
    (w3 : Fin 65 → Fin 4096 → EReal) (w4 : Fin 4096 → Fin 128 → EReal) (b4 : Fin 128 → EReal)
    (s n : Fin 33 → EReal) (q : Fin 128) : EReal :=
  kOutput w4 b4 (kHidden3 w3 (kJoined (kFeature w1 w2 b2 s) (kFeature w1 w2 b2 n))) q

/-! ## The two arrangements agree -/

theorem kHidden_eq (W1 : Fin 32 → Fin 4096 → EReal) (b1 : Fin 4096 → EReal) (x : Fin 32 → EReal) (k : Fin 4096) :
    kHidden (withBias W1 b1) (withOne x) k = hidden W1 b1 x k := by
  unfold kHidden hidden
  rw [sum_succ_bias (fun l => withOne x l) (fun l => withBias W1 b1 l k) x (fun l => W1 l k) (b1 k)
    (withOne_castSucc x) (fun l => withBias_castSucc W1 b1 l k) (withOne_last x) (withBias_last W1 b1 k)]

theorem kFeature_eq (W1 : Fin 32 → Fin 4096 → EReal) (b1 : Fin 4096 → EReal) (W2 : Fin 4096 → Fin 32 → EReal)
    (b2 : Fin 32 → EReal) (x : Fin 32 → EReal) (j : Fin 32) :
    kFeature (withBias W1 b1) W2 b2 (withOne x) j = feature W1 b1 W2 b2 x j := by
  unfold kFeature feature
  rw [chunked_eq]
  simp only [kHidden_eq]

theorem kJoined_castSucc (a b : Fin 32 → EReal) (l : Fin 64) : kJoined a b l.castSucc = joined a b l := by
  unfold kJoined joined
  by_cases h : l.val < 32
  · rw [dif_pos (by exact h), dif_pos h]; rfl
  · rw [dif_neg (by exact h), dif_neg h, dif_pos (by exact l.isLt)]; rfl

theorem kJoined_last (a b : Fin 32 → EReal) : kJoined a b (Fin.last 64) = 1 := by
  unfold kJoined; rw [dif_neg (by simp), dif_neg (by simp)]

theorem kHidden3_eq (W3 : Fin 64 → Fin 4096 → EReal) (b3 : Fin 4096 → EReal) (a b : Fin 32 → EReal) (k : Fin 4096) :
    kHidden3 (withBias W3 b3) (kJoined a b) k = hidden3 W3 b3 (joined a b) k := by
  unfold kHidden3 hidden3
  rw [sum_succ_bias (fun l => kJoined a b l) (fun l => withBias W3 b3 l k) (joined a b) (fun l => W3 l k) (b3 k)
    (kJoined_castSucc a b) (fun l => withBias_castSucc W3 b3 l k) (kJoined_last a b) (withBias_last W3 b3 k)]

/-- The kernel's arrangement of the network is the network. -/
theorem kNet_eq (W1 : Fin 32 → Fin 4096 → EReal) (b1 : Fin 4096 → EReal) (W2 : Fin 4096 → Fin 32 → EReal) (b2 : Fin 32 → EReal)
    (W3 : Fin 64 → Fin 4096 → EReal) (b3 : Fin 4096 → EReal) (W4 : Fin 4096 → Fin 128 → EReal) (b4 : Fin 128 → EReal)
    (s n : Fin 32 → EReal) (q : Fin 128) :
    kNet (withBias W1 b1) W2 b2 (withBias W3 b3) W4 b4 (withOne s) (withOne n) q = net W1 b1 W2 b2 W3 b3 W4 b4 s n q := by
  unfold kNet net kOutput output
  rw [chunked_eq]
  have hf : ∀ x : Fin 32 → EReal, kFeature (withBias W1 b1) W2 b2 (withOne x) = feature W1 b1 W2 b2 x :=
    fun x => funext fun j => kFeature_eq W1 b1 W2 b2 x j
  rw [hf s, hf n]
  simp only [kHidden3_eq]

end Siamese

end
-- ==== Proof.NetArray.lean ====
/-
  The network of NetMath.lean applied row by row to whole arrays: entry `(r, q)` of the result is the
  network's output `q` on rows `r` of the two input arrays. This is the one function both programs'
  result arrays are shown to be.
-/
import proofs.«174498_g11802570129985_cont_fleet_79_5_alg».proof.Proof.NetMath
import Idealize.ShloMosaic.Lib.ValueIdx

noncomputable section

namespace Siamese

open Idealize.ShloMosaic Idealize.ShloMosaic.ValueIdx

/-- Entry `(r, q)` of the result from the ten argument arrays. -/
def netAt (a0 a1 : (⟨2, ![16384, 32]⟩ : Shape).Idx → EReal) (a2 : (⟨2, ![32, 4096]⟩ : Shape).Idx → EReal)
    (a3 : (⟨1, ![4096]⟩ : Shape).Idx → EReal) (a4 : (⟨2, ![4096, 32]⟩ : Shape).Idx → EReal)
    (a5 : (⟨1, ![32]⟩ : Shape).Idx → EReal) (a6 : (⟨2, ![64, 4096]⟩ : Shape).Idx → EReal)
    (a7 : (⟨1, ![4096]⟩ : Shape).Idx → EReal) (a8 : (⟨2, ![4096, 128]⟩ : Shape).Idx → EReal)
    (a9 : (⟨1, ![128]⟩ : Shape).Idx → EReal) (r : Fin 16384) (q : Fin 128) : EReal :=
  net (fun l k => a2 (ix2 l k)) (fun k => a3 (ix1 k)) (fun k j => a4 (ix2 k j)) (fun j => a5 (ix1 j))
    (fun l k => a6 (ix2 l k)) (fun k => a7 (ix1 k)) (fun k q' => a8 (ix2 k q')) (fun q' => a9 (ix1 q'))
    (fun l => a0 (ix2 r l)) (fun l => a1 (ix2 r l)) q

/-- The whole result array. -/
def netArray (a0 a1 : (⟨2, ![16384, 32]⟩ : Shape).Idx → EReal) (a2 : (⟨2, ![32, 4096]⟩ : Shape).Idx → EReal)
    (a3 : (⟨1, ![4096]⟩ : Shape).Idx → EReal) (a4 : (⟨2, ![4096, 32]⟩ : Shape).Idx → EReal)
    (a5 : (⟨1, ![32]⟩ : Shape).Idx → EReal) (a6 : (⟨2, ![64, 4096]⟩ : Shape).Idx → EReal)
    (a7 : (⟨1, ![4096]⟩ : Shape).Idx → EReal) (a8 : (⟨2, ![4096, 128]⟩ : Shape).Idx → EReal)
    (a9 : (⟨1, ![128]⟩ : Shape).Idx → EReal) : (⟨2, ![16384, 128]⟩ : Shape).Idx → EReal :=
  fun i => netAt a0 a1 a2 a3 a4 a5 a6 a7 a8 a9 ⟨(i 0).val, idx2_lt0 i⟩ ⟨(i 1).val, idx2_lt1 i⟩

theorem netArray_ix2 (a0 a1 : (⟨2, ![16384, 32]⟩ : Shape).Idx → EReal) (a2 : (⟨2, ![32, 4096]⟩ : Shape).Idx → EReal)
    (a3 : (⟨1, ![4096]⟩ : Shape).Idx → EReal) (a4 : (⟨2, ![4096, 32]⟩ : Shape).Idx → EReal)
    (a5 : (⟨1, ![32]⟩ : Shape).Idx → EReal) (a6 : (⟨2, ![64, 4096]⟩ : Shape).Idx → EReal)
    (a7 : (⟨1, ![4096]⟩ : Shape).Idx → EReal) (a8 : (⟨2, ![4096, 128]⟩ : Shape).Idx → EReal)
    (a9 : (⟨1, ![128]⟩ : Shape).Idx → EReal) (r : Fin 16384) (q : Fin 128) :
    netArray a0 a1 a2 a3 a4 a5 a6 a7 a8 a9 (ix2 r q) = netAt a0 a1 a2 a3 a4 a5 a6 a7 a8 a9 r q := rfl

end Siamese

end
-- ==== Proof.RefNet.lean ====
/-
  The reference's result term, read at an entry, is the network of NetMath.lean on the two input rows: each of its
  operations is read at an index (the generated reads of the run, one operation at a time; the one concatenate, which
  lays the two feature rows side by side, by hand) until only the row sums are left.
-/
import proofs.«174498_g11802570129985_cont_fleet_79_5_alg».proof.Proof.Gen.ReferenceIdeal.Read
import proofs.«174498_g11802570129985_cont_fleet_79_5_alg».proof.Proof.NetMath

noncomputable section

namespace Cert.ReferenceIdeal.RefNet

open Cert.ReferenceIdeal Cert.ReferenceIdeal.Read Idealize.ShloMosaic Idealize.ShloMosaic.ValueIdx

/-- The first layer on row `r` of an input: a row sum, its bias added, the maximum with zero. -/
private theorem hidden0_at (x0 : (⟨S16384x32, .f32⟩ : BufTy).Contents (Elt Ideal)) (x2 : (⟨S32x4096, .f32⟩ : BufTy).Contents (Elt Ideal)) (x3 : (⟨S4096, .f32⟩ : BufTy).Contents (Elt Ideal)) (r : Fin 16384) (k : Fin 4096) :
    val_main_v4 (F := Ideal) x0 x2 x3 (ix2 r k)
      = Siamese.hidden (fun l k => x2 (ix2 l k)) (fun k => x3 (ix1 k)) (fun l => x0 (ix2 r l)) k := by
  rw [val_main_v4_apply, val_main_v3_apply, val_main_v0_apply, val_main_v2_apply, val_main_v1_apply,
    val_main_call0_v0_apply, val_main_call0_cst_apply]
  have e1 : ∀ l : Fin 32, lidx_main_v0 (ix2 r k) l = ix2 r l := fun l => funext fun a => by match a with | ⟨0, _⟩ => rfl | ⟨1, _⟩ => rfl
  have e2 : ∀ l : Fin 32, ridx_main_v0 (ix2 r k) l = ix2 l k := fun l => funext fun a => by match a with | ⟨0, _⟩ => rfl | ⟨1, _⟩ => rfl
  have e3 : idx_main_v1 (idx_main_v2 (ix2 r k)) = ix1 k := funext fun a => by match a with | ⟨0, _⟩ => rfl
  simp only [e1, e2, e3]
  rw [Ideal.maximumf_def, Ideal.addf_def, Ideal.ofBits_def, Ideal.ofBits_zero_f32]
  rfl

/-- The first layer on row `r` of an input: a row sum, its bias added, the maximum with zero. -/
private theorem hidden1_at (x1 : (⟨S16384x32, .f32⟩ : BufTy).Contents (Elt Ideal)) (x2 : (⟨S32x4096, .f32⟩ : BufTy).Contents (Elt Ideal)) (x3 : (⟨S4096, .f32⟩ : BufTy).Contents (Elt Ideal)) (r : Fin 16384) (k : Fin 4096) :
    val_main_v14 (F := Ideal) x1 x2 x3 (ix2 r k)
      = Siamese.hidden (fun l k => x2 (ix2 l k)) (fun k => x3 (ix1 k)) (fun l => x1 (ix2 r l)) k := by
  rw [val_main_v14_apply, val_main_v13_apply, val_main_v10_apply, val_main_v12_apply, val_main_v11_apply,
    val_main_call2_v0_apply, val_main_call2_cst_apply]
  have e1 : ∀ l : Fin 32, lidx_main_v10 (ix2 r k) l = ix2 r l := fun l => funext fun a => by match a with | ⟨0, _⟩ => rfl | ⟨1, _⟩ => rfl
  have e2 : ∀ l : Fin 32, ridx_main_v10 (ix2 r k) l = ix2 l k := fun l => funext fun a => by match a with | ⟨0, _⟩ => rfl | ⟨1, _⟩ => rfl
  have e3 : idx_main_v11 (idx_main_v12 (ix2 r k)) = ix1 k := funext fun a => by match a with | ⟨0, _⟩ => rfl
  simp only [e1, e2, e3]
  rw [Ideal.maximumf_def, Ideal.addf_def, Ideal.ofBits_def, Ideal.ofBits_zero_f32]
  rfl

/-- The second layer on row `r` of an input, over the first layer's row. -/
private theorem feature0_at (x0 : (⟨S16384x32, .f32⟩ : BufTy).Contents (Elt Ideal)) (x2 : (⟨S32x4096, .f32⟩ : BufTy).Contents (Elt Ideal)) (x3 : (⟨S4096, .f32⟩ : BufTy).Contents (Elt Ideal)) (x4 : (⟨S4096x32, .f32⟩ : BufTy).Contents (Elt Ideal)) (x5 : (⟨S32, .f32⟩ : BufTy).Contents (Elt Ideal)) (r : Fin 16384) (j : Fin 32) :
    val_main_v9 (F := Ideal) x0 x2 x3 x4 x5 (ix2 r j)
      = Siamese.feature (fun l k => x2 (ix2 l k)) (fun k => x3 (ix1 k)) (fun k j => x4 (ix2 k j)) (fun j => x5 (ix1 j)) (fun l => x0 (ix2 r l)) j := by
  rw [val_main_v9_apply, val_main_v8_apply, val_main_v5_apply, val_main_v7_apply, val_main_v6_apply,
    val_main_call1_v0_apply, val_main_call1_cst_apply]
  have e1 : ∀ k : Fin 4096, lidx_main_v5 (ix2 r j) k = ix2 r k := fun k => funext fun a => by match a with | ⟨0, _⟩ => rfl | ⟨1, _⟩ => rfl
  have e2 : ∀ k : Fin 4096, ridx_main_v5 (ix2 r j) k = ix2 k j := fun k => funext fun a => by match a with | ⟨0, _⟩ => rfl | ⟨1, _⟩ => rfl
  have e3 : idx_main_v6 (idx_main_v7 (ix2 r j)) = ix1 j := funext fun a => by match a with | ⟨0, _⟩ => rfl
  simp only [e1, e2, e3, hidden0_at]
  rw [Ideal.maximumf_def, Ideal.addf_def, Ideal.ofBits_def, Ideal.ofBits_zero_f32]
  rfl

/-- The second layer on row `r` of an input, over the first layer's row. -/
private theorem feature1_at (x1 : (⟨S16384x32, .f32⟩ : BufTy).Contents (Elt Ideal)) (x2 : (⟨S32x4096, .f32⟩ : BufTy).Contents (Elt Ideal)) (x3 : (⟨S4096, .f32⟩ : BufTy).Contents (Elt Ideal)) (x4 : (⟨S4096x32, .f32⟩ : BufTy).Contents (Elt Ideal)) (x5 : (⟨S32, .f32⟩ : BufTy).Contents (Elt Ideal)) (r : Fin 16384) (j : Fin 32) :
    val_main_v19 (F := Ideal) x1 x2 x3 x4 x5 (ix2 r j)
      = Siamese.feature (fun l k => x2 (ix2 l k)) (fun k => x3 (ix1 k)) (fun k j => x4 (ix2 k j)) (fun j => x5 (ix1 j)) (fun l => x1 (ix2 r l)) j := by
  rw [val_main_v19_apply, val_main_v18_apply, val_main_v15_apply, val_main_v17_apply, val_main_v16_apply,
    val_main_call3_v0_apply, val_main_call3_cst_apply]
  have e1 : ∀ k : Fin 4096, lidx_main_v15 (ix2 r j) k = ix2 r k := fun k => funext fun a => by match a with | ⟨0, _⟩ => rfl | ⟨1, _⟩ => rfl
  have e2 : ∀ k : Fin 4096, ridx_main_v15 (ix2 r j) k = ix2 k j := fun k => funext fun a => by match a with | ⟨0, _⟩ => rfl | ⟨1, _⟩ => rfl
  have e3 : idx_main_v16 (idx_main_v17 (ix2 r j)) = ix1 j := funext fun a => by match a with | ⟨0, _⟩ => rfl
  simp only [e1, e2, e3, hidden1_at]
  rw [Ideal.maximumf_def, Ideal.addf_def, Ideal.ofBits_def, Ideal.ofBits_zero_f32]
  rfl

/-- The two feature rows laid side by side: the first 32 entries are the first input's, the last 32 the second's. -/
private theorem joined_at (x0 x1 : (⟨S16384x32, .f32⟩ : BufTy).Contents (Elt Ideal)) (x2 : (⟨S32x4096, .f32⟩ : BufTy).Contents (Elt Ideal)) (x3 : (⟨S4096, .f32⟩ : BufTy).Contents (Elt Ideal)) (x4 : (⟨S4096x32, .f32⟩ : BufTy).Contents (Elt Ideal)) (x5 : (⟨S32, .f32⟩ : BufTy).Contents (Elt Ideal)) (r : Fin 16384) (l : Fin 64) :
    val_main_v20 (F := Ideal) x0 x1 x2 x3 x4 x5 (ix2 r l) = (Siamese.joined (Siamese.feature (fun l k => x2 (ix2 l k)) (fun k => x3 (ix1 k)) (fun k j => x4 (ix2 k j)) (fun j => x5 (ix1 j)) (fun l => x0 (ix2 r l))) (Siamese.feature (fun l k => x2 (ix2 l k)) (fun k => x3 (ix1 k)) (fun k j => x4 (ix2 k j)) (fun j => x5 (ix1 j)) (fun l => x1 (ix2 r l)))) l := by
  unfold val_main_v20 Siamese.joined
  by_cases h : l.val < 32
  · rw [dif_pos h]
    refine (concatenate_pair_apply_left (t := S16384x64) (s₁ := S16384x32) (s₂ := S16384x32) _ _ _ _ (ix2 r l) rfl (ix2 r (⟨l.val, h⟩ : Fin 32)) ?_).trans ?_
    · intro b
      match b with
      | ⟨0, _⟩ => rfl
      | ⟨1, _⟩ => rfl
    · exact feature0_at x0 x2 x3 x4 x5 r ⟨l.val, h⟩
  · rw [dif_neg h]
    have h2 : l.val - 32 < 32 := by have := l.isLt; omega
    refine (concatenate_pair_apply_right (t := S16384x64) (s₁ := S16384x32) (s₂ := S16384x32) _ _ _ _ (ix2 r l) rfl rfl (ix2 r (⟨l.val - 32, h2⟩ : Fin 32)) ?_ ?_).trans ?_
    · intro b hb
      match b, hb with
      | ⟨0, _⟩, _ => rfl
      | ⟨1, _⟩, hb => exact absurd rfl hb
    · show l.val - 32 + 32 = l.val
      omega
    · exact feature1_at x1 x2 x3 x4 x5 r ⟨l.val - 32, h2⟩

/-- The third layer on the joined row. -/
private theorem hidden3_at (x0 x1 : (⟨S16384x32, .f32⟩ : BufTy).Contents (Elt Ideal)) (x2 : (⟨S32x4096, .f32⟩ : BufTy).Contents (Elt Ideal)) (x3 : (⟨S4096, .f32⟩ : BufTy).Contents (Elt Ideal)) (x4 : (⟨S4096x32, .f32⟩ : BufTy).Contents (Elt Ideal)) (x5 : (⟨S32, .f32⟩ : BufTy).Contents (Elt Ideal)) (x6 : (⟨S64x4096, .f32⟩ : BufTy).Contents (Elt Ideal)) (x7 : (⟨S4096, .f32⟩ : BufTy).Contents (Elt Ideal)) (r : Fin 16384) (k : Fin 4096) :
    val_main_v25 (F := Ideal) x0 x1 x2 x3 x4 x5 x6 x7 (ix2 r k)
      = Siamese.hidden3 (fun l k => x6 (ix2 l k)) (fun k => x7 (ix1 k)) (Siamese.joined (Siamese.feature (fun l k => x2 (ix2 l k)) (fun k => x3 (ix1 k)) (fun k j => x4 (ix2 k j)) (fun j => x5 (ix1 j)) (fun l => x0 (ix2 r l))) (Siamese.feature (fun l k => x2 (ix2 l k)) (fun k => x3 (ix1 k)) (fun k j => x4 (ix2 k j)) (fun j => x5 (ix1 j)) (fun l => x1 (ix2 r l)))) k := by
  rw [val_main_v25_apply, val_main_v24_apply, val_main_v21_apply, val_main_v23_apply, val_main_v22_apply,
    val_main_call4_v0_apply, val_main_call4_cst_apply]
  have e1 : ∀ l : Fin 64, lidx_main_v21 (ix2 r k) l = ix2 r l := fun l => funext fun a => by match a with | ⟨0, _⟩ => rfl | ⟨1, _⟩ => rfl
  have e2 : ∀ l : Fin 64, ridx_main_v21 (ix2 r k) l = ix2 l k := fun l => funext fun a => by match a with | ⟨0, _⟩ => rfl | ⟨1, _⟩ => rfl
  have e3 : idx_main_v22 (idx_main_v23 (ix2 r k)) = ix1 k := funext fun a => by match a with | ⟨0, _⟩ => rfl
  simp only [e1, e2, e3, joined_at]
  rw [Ideal.maximumf_def, Ideal.addf_def, Ideal.ofBits_def, Ideal.ofBits_zero_f32]
  rfl

/-- Entry `(r, q)` of the reference's result is the network's output `q` on rows `r` of the two inputs. -/
theorem ref_apply (x0 x1 : (⟨S16384x32, .f32⟩ : BufTy).Contents (Elt Ideal)) (x2 : (⟨S32x4096, .f32⟩ : BufTy).Contents (Elt Ideal))
    (x3 : (⟨S4096, .f32⟩ : BufTy).Contents (Elt Ideal)) (x4 : (⟨S4096x32, .f32⟩ : BufTy).Contents (Elt Ideal))
    (x5 : (⟨S32, .f32⟩ : BufTy).Contents (Elt Ideal)) (x6 : (⟨S64x4096, .f32⟩ : BufTy).Contents (Elt Ideal))
    (x7 : (⟨S4096, .f32⟩ : BufTy).Contents (Elt Ideal)) (x8 : (⟨S4096x128, .f32⟩ : BufTy).Contents (Elt Ideal))
    (x9 : (⟨S128, .f32⟩ : BufTy).Contents (Elt Ideal)) (r : Fin 16384) (q : Fin 128) :
    val_main_v29 (F := Ideal) x0 x1 x2 x3 x4 x5 x6 x7 x8 x9 (ix2 r q)
      = Siamese.net (fun l k => x2 (ix2 l k)) (fun k => x3 (ix1 k)) (fun k j => x4 (ix2 k j)) (fun j => x5 (ix1 j))
          (fun l k => x6 (ix2 l k)) (fun k => x7 (ix1 k)) (fun k q' => x8 (ix2 k q')) (fun q' => x9 (ix1 q'))
          (fun l => x0 (ix2 r l)) (fun l => x1 (ix2 r l)) q := by
  rw [val_main_v29_apply, val_main_v26_apply, val_main_v28_apply, val_main_v27_apply]
  have e1 : ∀ k : Fin 4096, lidx_main_v26 (ix2 r q) k = ix2 r k := fun k => funext fun a => by match a with | ⟨0, _⟩ => rfl | ⟨1, _⟩ => rfl
  have e2 : ∀ k : Fin 4096, ridx_main_v26 (ix2 r q) k = ix2 k q := fun k => funext fun a => by match a with | ⟨0, _⟩ => rfl | ⟨1, _⟩ => rfl
  have e3 : idx_main_v27 (idx_main_v28 (ix2 r q)) = ix1 q := funext fun a => by match a with | ⟨0, _⟩ => rfl
  simp only [e1, e2, e3, hidden3_at]
  rw [Ideal.addf_def]
  rfl

end Cert.ReferenceIdeal.RefNet

end
-- ==== Proof.MatmulRead.lean ====
/-
  The kernel's four matrix products read at an entry. Into a zero accumulator a product of a [a, n] block with a
  [n, b] block is, at entry (r, j), the sum over the n contracted positions of the factors' products: on the
  extended reals there is no rounding and no order of accumulation left in it.
-/
import proofs.«174498_g11802570129985_cont_fleet_79_5_alg».proof.KernelIdeal
import proofs.«174498_g11802570129985_cont_fleet_79_5_alg».proof.Proof.Gen.KernelIdeal
import Idealize.ShloMosaic.Lib.ValueIdx
import Idealize.ShloMosaic.PureOps.Ideal.Laws

noncomputable section

namespace Cert.KernelIdeal.MatmulRead

open Cert.KernelIdeal Idealize.ShloMosaic Idealize.ShloMosaic.ValueIdx

/-! ### [1024, 33] × [33, 512]: the operand indices of the product, axis by axis -/

private theorem lhs_in_0 (i : S1024x512.Idx) (q : dot_S1024x33_S33x512_S1024x512_1_0_0_1_n_n.contr.Idx) :
    (dot_S1024x33_S33x512_S1024x512_1_0_0_1_n_n.lhsIdx i q 0).val = (i 0).val := by
  unfold DotDims.lhsIdx
  rw [dif_neg (show ¬(0 : Fin S1024x33.rank) ∈ dot_S1024x33_S33x512_S1024x512_1_0_0_1_n_n.lhsBatch by decide), dif_pos (show (0 : Fin S1024x33.rank) ∈ dot_S1024x33_S33x512_S1024x512_1_0_0_1_n_n.lhsNonContracting by decide)]
  rfl
private theorem lhs_in_1 (i : S1024x512.Idx) (q : dot_S1024x33_S33x512_S1024x512_1_0_0_1_n_n.contr.Idx) :
    (dot_S1024x33_S33x512_S1024x512_1_0_0_1_n_n.lhsIdx i q 1).val = (q ⟨0, by decide⟩).val :=
  dot_S1024x33_S33x512_S1024x512_1_0_0_1_n_n.lhsIdx_val_of_single rfl i q
private theorem rhs_in_0 (i : S1024x512.Idx) (q : dot_S1024x33_S33x512_S1024x512_1_0_0_1_n_n.contr.Idx) :
    (dot_S1024x33_S33x512_S1024x512_1_0_0_1_n_n.rhsIdx i q 0).val = (q ⟨0, by decide⟩).val :=
  dot_S1024x33_S33x512_S1024x512_1_0_0_1_n_n.rhsIdx_val_of_single rfl i q
private theorem rhs_in_1 (i : S1024x512.Idx) (q : dot_S1024x33_S33x512_S1024x512_1_0_0_1_n_n.contr.Idx) :
    (dot_S1024x33_S33x512_S1024x512_1_0_0_1_n_n.rhsIdx i q 1).val = (i 1).val := by
  unfold DotDims.rhsIdx
  rw [dif_neg (show ¬(1 : Fin S33x512.rank) ∈ dot_S1024x33_S33x512_S1024x512_1_0_0_1_n_n.rhsBatch by decide), dif_pos (show (1 : Fin S33x512.rank) ∈ dot_S1024x33_S33x512_S1024x512_1_0_0_1_n_n.rhsNonContracting by decide)]
  rfl

/-- [1024, 33] × [33, 512]: the stacked input rows against one chunk of the first weight matrix. -/
theorem mm_in (x : FVec Ideal S1024x33 .bf16) (w : FVec Ideal S33x512 .bf16) (r : Fin 1024) (j : Fin 512) :
    matmul (F := Ideal) dot_S1024x33_S33x512_S1024x512_1_0_0_1_n_n none x w (constant S1024x512 .f32 0x00000000#32) (ix2 r j)
      = ∑ l : Fin 33, x (ix2 r l) * w (ix2 l j) := by
  simp only [matmul]
  rw [Ideal.matmul_constant_zero_apply, ← Equiv.sum_comp (ValueIdx.contrEquiv1 dot_S1024x33_S33x512_S1024x512_1_0_0_1_n_n 33 rfl rfl).symm]
  refine Finset.sum_congr rfl fun k _ => ?_
  have hk := ValueIdx.contrEquiv1_symm_val dot_S1024x33_S33x512_S1024x512_1_0_0_1_n_n 33 rfl rfl k
  have el : dot_S1024x33_S33x512_S1024x512_1_0_0_1_n_n.lhsIdx (ix2 r j) ((ValueIdx.contrEquiv1 dot_S1024x33_S33x512_S1024x512_1_0_0_1_n_n 33 rfl rfl).symm k) = ix2 r k := funext fun a => Fin.ext (by
    match a with
    | ⟨0, _⟩ => exact lhs_in_0 _ _
    | ⟨1, _⟩ => exact (lhs_in_1 _ _).trans hk)
  have er : dot_S1024x33_S33x512_S1024x512_1_0_0_1_n_n.rhsIdx (ix2 r j) ((ValueIdx.contrEquiv1 dot_S1024x33_S33x512_S1024x512_1_0_0_1_n_n 33 rfl rfl).symm k) = ix2 k j := funext fun a => Fin.ext (by
    match a with
    | ⟨0, _⟩ => exact (rhs_in_0 _ _).trans hk
    | ⟨1, _⟩ => exact rhs_in_1 _ _)
  rw [el, er]

/-! ### [1024, 512] × [512, 32]: the operand indices of the product, axis by axis -/

private theorem lhs_feat_0 (i : S1024x32.Idx) (q : dot_S1024x512_S512x32_S1024x32_1_0_0_1_n_n.contr.Idx) :
    (dot_S1024x512_S512x32_S1024x32_1_0_0_1_n_n.lhsIdx i q 0).val = (i 0).val := by
  unfold DotDims.lhsIdx
  rw [dif_neg (show ¬(0 : Fin S1024x512.rank) ∈ dot_S1024x512_S512x32_S1024x32_1_0_0_1_n_n.lhsBatch by decide), dif_pos (show (0 : Fin S1024x512.rank) ∈ dot_S1024x512_S512x32_S1024x32_1_0_0_1_n_n.lhsNonContracting by decide)]
  rfl
private theorem lhs_feat_1 (i : S1024x32.Idx) (q : dot_S1024x512_S512x32_S1024x32_1_0_0_1_n_n.contr.Idx) :
    (dot_S1024x512_S512x32_S1024x32_1_0_0_1_n_n.lhsIdx i q 1).val = (q ⟨0, by decide⟩).val :=
  dot_S1024x512_S512x32_S1024x32_1_0_0_1_n_n.lhsIdx_val_of_single rfl i q
private theorem rhs_feat_0 (i : S1024x32.Idx) (q : dot_S1024x512_S512x32_S1024x32_1_0_0_1_n_n.contr.Idx) :
    (dot_S1024x512_S512x32_S1024x32_1_0_0_1_n_n.rhsIdx i q 0).val = (q ⟨0, by decide⟩).val :=
  dot_S1024x512_S512x32_S1024x32_1_0_0_1_n_n.rhsIdx_val_of_single rfl i q
private theorem rhs_feat_1 (i : S1024x32.Idx) (q : dot_S1024x512_S512x32_S1024x32_1_0_0_1_n_n.contr.Idx) :
    (dot_S1024x512_S512x32_S1024x32_1_0_0_1_n_n.rhsIdx i q 1).val = (i 1).val := by
  unfold DotDims.rhsIdx
  rw [dif_neg (show ¬(1 : Fin S512x32.rank) ∈ dot_S1024x512_S512x32_S1024x32_1_0_0_1_n_n.rhsBatch by decide), dif_pos (show (1 : Fin S512x32.rank) ∈ dot_S1024x512_S512x32_S1024x32_1_0_0_1_n_n.rhsNonContracting by decide)]
  rfl

/-- [1024, 512] × [512, 32]: one chunk of hidden units against its rows of the second weight matrix. -/
theorem mm_feat (h : FVec Ideal S1024x512 .bf16) (w : FVec Ideal S512x32 .bf16) (r : Fin 1024) (j : Fin 32) :
    matmul (F := Ideal) dot_S1024x512_S512x32_S1024x32_1_0_0_1_n_n none h w (constant S1024x32 .f32 0x00000000#32) (ix2 r j)
      = ∑ k : Fin 512, h (ix2 r k) * w (ix2 k j) := by
  simp only [matmul]
  rw [Ideal.matmul_constant_zero_apply, ← Equiv.sum_comp (ValueIdx.contrEquiv1 dot_S1024x512_S512x32_S1024x32_1_0_0_1_n_n 512 rfl rfl).symm]
  refine Finset.sum_congr rfl fun k _ => ?_
  have hk := ValueIdx.contrEquiv1_symm_val dot_S1024x512_S512x32_S1024x32_1_0_0_1_n_n 512 rfl rfl k
  have el : dot_S1024x512_S512x32_S1024x32_1_0_0_1_n_n.lhsIdx (ix2 r j) ((ValueIdx.contrEquiv1 dot_S1024x512_S512x32_S1024x32_1_0_0_1_n_n 512 rfl rfl).symm k) = ix2 r k := funext fun a => Fin.ext (by
    match a with
    | ⟨0, _⟩ => exact lhs_feat_0 _ _
    | ⟨1, _⟩ => exact (lhs_feat_1 _ _).trans hk)
  have er : dot_S1024x512_S512x32_S1024x32_1_0_0_1_n_n.rhsIdx (ix2 r j) ((ValueIdx.contrEquiv1 dot_S1024x512_S512x32_S1024x32_1_0_0_1_n_n 512 rfl rfl).symm k) = ix2 k j := funext fun a => Fin.ext (by
    match a with
    | ⟨0, _⟩ => exact (rhs_feat_0 _ _).trans hk
    | ⟨1, _⟩ => exact rhs_feat_1 _ _)
  rw [el, er]

/-! ### [512, 65] × [65, 512]: the operand indices of the product, axis by axis -/

private theorem lhs_pair_0 (i : S512x512.Idx) (q : dot_S512x65_S65x512_S512x512_1_0_0_1_n_n.contr.Idx) :
    (dot_S512x65_S65x512_S512x512_1_0_0_1_n_n.lhsIdx i q 0).val = (i 0).val := by
  unfold DotDims.lhsIdx
  rw [dif_neg (show ¬(0 : Fin S512x65.rank) ∈ dot_S512x65_S65x512_S512x512_1_0_0_1_n_n.lhsBatch by decide), dif_pos (show (0 : Fin S512x65.rank) ∈ dot_S512x65_S65x512_S512x512_1_0_0_1_n_n.lhsNonContracting by decide)]
  rfl
private theorem lhs_pair_1 (i : S512x512.Idx) (q : dot_S512x65_S65x512_S512x512_1_0_0_1_n_n.contr.Idx) :
    (dot_S512x65_S65x512_S512x512_1_0_0_1_n_n.lhsIdx i q 1).val = (q ⟨0, by decide⟩).val :=
  dot_S512x65_S65x512_S512x512_1_0_0_1_n_n.lhsIdx_val_of_single rfl i q
private theorem rhs_pair_0 (i : S512x512.Idx) (q : dot_S512x65_S65x512_S512x512_1_0_0_1_n_n.contr.Idx) :
    (dot_S512x65_S65x512_S512x512_1_0_0_1_n_n.rhsIdx i q 0).val = (q ⟨0, by decide⟩).val :=
  dot_S512x65_S65x512_S512x512_1_0_0_1_n_n.rhsIdx_val_of_single rfl i q
private theorem rhs_pair_1 (i : S512x512.Idx) (q : dot_S512x65_S65x512_S512x512_1_0_0_1_n_n.contr.Idx) :
    (dot_S512x65_S65x512_S512x512_1_0_0_1_n_n.rhsIdx i q 1).val = (i 1).val := by
  unfold DotDims.rhsIdx
  rw [dif_neg (show ¬(1 : Fin S65x512.rank) ∈ dot_S512x65_S65x512_S512x512_1_0_0_1_n_n.rhsBatch by decide), dif_pos (show (1 : Fin S65x512.rank) ∈ dot_S512x65_S65x512_S512x512_1_0_0_1_n_n.rhsNonContracting by decide)]
  rfl

/-- [512, 65] × [65, 512]: the paired feature rows against one chunk of the third weight matrix. -/
theorem mm_pair (u : FVec Ideal S512x65 .bf16) (w : FVec Ideal S65x512 .bf16) (p : Fin 512) (j : Fin 512) :
    matmul (F := Ideal) dot_S512x65_S65x512_S512x512_1_0_0_1_n_n none u w (constant S512x512 .f32 0x00000000#32) (ix2 p j)
      = ∑ l : Fin 65, u (ix2 p l) * w (ix2 l j) := by
  simp only [matmul]
  rw [Ideal.matmul_constant_zero_apply, ← Equiv.sum_comp (ValueIdx.contrEquiv1 dot_S512x65_S65x512_S512x512_1_0_0_1_n_n 65 rfl rfl).symm]
  refine Finset.sum_congr rfl fun k _ => ?_
  have hk := ValueIdx.contrEquiv1_symm_val dot_S512x65_S65x512_S512x512_1_0_0_1_n_n 65 rfl rfl k
  have el : dot_S512x65_S65x512_S512x512_1_0_0_1_n_n.lhsIdx (ix2 p j) ((ValueIdx.contrEquiv1 dot_S512x65_S65x512_S512x512_1_0_0_1_n_n 65 rfl rfl).symm k) = ix2 p k := funext fun a => Fin.ext (by
    match a with
    | ⟨0, _⟩ => exact lhs_pair_0 _ _
    | ⟨1, _⟩ => exact (lhs_pair_1 _ _).trans hk)
  have er : dot_S512x65_S65x512_S512x512_1_0_0_1_n_n.rhsIdx (ix2 p j) ((ValueIdx.contrEquiv1 dot_S512x65_S65x512_S512x512_1_0_0_1_n_n 65 rfl rfl).symm k) = ix2 k j := funext fun a => Fin.ext (by
    match a with
    | ⟨0, _⟩ => exact (rhs_pair_0 _ _).trans hk
    | ⟨1, _⟩ => exact rhs_pair_1 _ _)
  rw [el, er]

/-! ### [512, 512] × [512, 128]: the operand indices of the product, axis by axis -/

private theorem lhs_out_0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
private theorem lhs_out_1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
private theorem rhs_out_0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
private theorem rhs_out_1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- [512, 512] × [512, 128]: one chunk of the second hidden layer against its rows of the last weight matrix. -/
theorem mm_out (h : FVec Ideal S512x512 .bf16) (w : FVec Ideal S512x128 .bf16) (p : Fin 512) (q : Fin 128) :
    matmul (F := Ideal) dot_S512x512_S512x128_S512x128_1_0_0_1_n_n none h w (constant S512x128 .f32 0x00000000#32) (ix2 p q)
      = ∑ k : Fin 512, h (ix2 p k) * w (ix2 k q) := by
  simp only [matmul]
  rw [Ideal.matmul_constant_zero_apply, ← Equiv.sum_comp (ValueIdx.contrEquiv1 dot_S512x512_S512x128_S512x128_1_0_0_1_n_n 512 rfl rfl).symm]
  refine Finset.sum_congr rfl fun k _ => ?_
  have hk := ValueIdx.contrEquiv1_symm_val dot_S512x512_S512x128_S512x128_1_0_0_1_n_n 512 rfl rfl k
  have el : dot_S512x512_S512x128_S512x128_1_0_0_1_n_n.lhsIdx (ix2 p q) ((ValueIdx.contrEquiv1 dot_S512x512_S512x128_S512x128_1_0_0_1_n_n 512 rfl rfl).symm k) = ix2 p k := funext fun a => Fin.ext (by
    match a with
    | ⟨0, _⟩ => exact lhs_out_0 _ _
    | ⟨1, _⟩ => exact (lhs_out_1 _ _).trans hk)
  have er : dot_S512x512_S512x128_S512x128_1_0_0_1_n_n.rhsIdx (ix2 p q) ((ValueIdx.contrEquiv1 dot_S512x512_S512x128_S512x128_1_0_0_1_n_n 512 rfl rfl).symm k) = ix2 k q := funext fun a => Fin.ext (by
    match a with
    | ⟨0, _⟩ => exact (rhs_out_0 _ _).trans hk
    | ⟨1, _⟩ => exact rhs_out_1 _ _)
  rw [el, er]

end Cert.KernelIdeal.MatmulRead

end
-- ==== Proof.Body.lean ====
/-
  What one grid point's run of the kernel body leaves in the output block, entry by entry: the network in the
  kernel's arrangement (NetMath.lean's `kNet`) on row `p` of the two input blocks, with the weight blocks as they
  are staged.

  The body is first restated chunk by chunk (`blockOut`; the same operations in the same order, so the two terms are
  equal by unfolding): the two input blocks stacked on rows; per chunk `c` of 512 hidden units the product with
  columns `512 c ..` of the first weight block, relu, and the product with rows `512 c ..` of the second, the eight
  results added in order onto the second bias; relu; the two halves of the 1024 rows laid side by side with a column
  of ones; the same again with the third and fourth weight blocks onto the fourth bias. Each piece is then read at
  an entry.
-/
import proofs.«174498_g11802570129985_cont_fleet_79_5_alg».proof.Proof.Gen.KernelIdeal.Frame
import proofs.«174498_g11802570129985_cont_fleet_79_5_alg».proof.Proof.MatmulRead
import proofs.«174498_g11802570129985_cont_fleet_79_5_alg».proof.Proof.NetMath
import Idealize.ShloMosaic.Lib.Pipeline.Value
import Idealize.ShloMosaic.Lib.ValueIdx
import Idealize.ShloMosaic.Lib.IdealHost

noncomputable section

namespace Cert.KernelIdeal.Body

open Cert.KernelIdeal Cert.KernelIdeal.Gen Idealize.ShloMosaic Idealize.ShloMosaic.ValueIdx

/-! ## The body, chunk by chunk -/

/-- The two input blocks stacked on rows: rows 0..511 the first, rows 512..1023 the second. -/
def stacked (x0 x1 : Vec Ideal S512x33 .bf16) : FVec Ideal S1024x33 .bf16 :=
  concatenate S1024x33 0 [⟨S512x33, (shapeCast S512x33 x0 shapeCasts_S512x33_S512x33 : FVec Ideal S512x33 .bf16)⟩, ⟨S512x33, (shapeCast S512x33 x1 shapeCasts_S512x33_S512x33 : FVec Ideal S512x33 .bf16)⟩] concatenates_S512x33_S512x33_S1024x33_d0

/-- One chunk of the first hidden layer: relu of the stacked rows times 512 columns of the first weight block. -/
def hidChunk (x : FVec Ideal S1024x33 .bf16) (w : Vec Ideal S33x512 .bf16) : FVec Ideal S1024x512 .bf16 :=
  truncf .bf16 (maximumf (φ := .f32) (matmul dot_S1024x33_S33x512_S1024x512_1_0_0_1_n_n none x (shapeCast S33x512 w shapeCasts_S33x512_S33x512 : FVec Ideal S33x512 .bf16) (constant S1024x512 .f32 0x00000000#32))
    (broadcast S1024x512 (Scalar.ofBits (F := Ideal) .f32 0x00000000#32))) bitsLt_bf16_f32

/-- That chunk's contribution to the features: times the matching 512 rows of the second weight block. -/
def featChunk (x : FVec Ideal S1024x33 .bf16) (w1 : Vec Ideal S33x512 .bf16) (w2 : Vec Ideal S512x32 .bf16) : FVec Ideal S1024x32 .f32 :=
  matmul dot_S1024x512_S512x32_S1024x32_1_0_0_1_n_n none (hidChunk x w1) (shapeCast S512x32 w2 shapeCasts_S512x32_S512x32 : FVec Ideal S512x32 .bf16) (constant S1024x32 .f32 0x00000000#32)

/-- The features of the 1024 stacked rows: the eight chunks added in order onto the bias row, then relu. -/
def feats (x0 x1 : Vec Ideal S512x33 .bf16) (x2 : Vec Ideal S33x4096 .bf16) (x3 : Vec Ideal S4096x32 .bf16) (x4 : Vec Ideal S1x32 .f32) : FVec Ideal S1024x32 .f32 :=
  maximumf (φ := .f32)
    (addf (addf (addf (addf (addf (addf (addf (addf
      (broadcastTo S1024x32 (shapeCast S1x32 (View.ld x4 r0_1) shapeCasts_S1x32_S1x32 : FVec Ideal S1x32 .f32) broadcasts_S1x32_S1024x32 : FVec Ideal S1024x32 .f32)
      (featChunk (stacked (View.ld x0 r0_0) (View.ld x1 r0_0)) (View.ld x2 r0_2) (View.ld x3 r0_3)))
      (featChunk (stacked (View.ld x0 r0_0) (View.ld x1 r0_0)) (View.ld x2 r0_4) (View.ld x3 r0_5)))
      (featChunk (stacked (View.ld x0 r0_0) (View.ld x1 r0_0)) (View.ld x2 r0_6) (View.ld x3 r0_7)))
      (featChunk (stacked (View.ld x0 r0_0) (View.ld x1 r0_0)) (View.ld x2 r0_8) (View.ld x3 r0_9)))
      (featChunk (stacked (View.ld x0 r0_0) (View.ld x1 r0_0)) (View.ld x2 r0_10) (View.ld x3 r0_11)))
      (featChunk (stacked (View.ld x0 r0_0) (View.ld x1 r0_0)) (View.ld x2 r0_12) (View.ld x3 r0_13)))
      (featChunk (stacked (View.ld x0 r0_0) (View.ld x1 r0_0)) (View.ld x2 r0_14) (View.ld x3 r0_15)))
      (featChunk (stacked (View.ld x0 r0_0) (View.ld x1 r0_0)) (View.ld x2 r0_16) (View.ld x3 r0_17)))
    (broadcast S1024x32 (Scalar.ofBits (F := Ideal) .f32 0x00000000#32) : FVec Ideal S1024x32 .f32)

/-- The two halves of the feature rows laid side by side, then a column of ones. -/
def paired (o : FVec Ideal S1024x32 .f32) : FVec Ideal S512x65 .bf16 :=
  truncf .bf16 (concatenate S512x65 1
    [⟨S512x32, (extractStridedSlice S512x32 ![0, 0] o slices_S1024x32_o0_0_S512x32 : FVec Ideal S512x32 .f32)⟩,
     ⟨S512x32, (extractStridedSlice S512x32 ![512, 0] o slices_S1024x32_o512_0_S512x32 : FVec Ideal S512x32 .f32)⟩,
     ⟨S512x1, (broadcast S512x1 (Scalar.ofBits (F := Ideal) .f32 0x3F800000#32) : FVec Ideal S512x1 .f32)⟩] concatenates_S512x32_S512x32_S512x1_S512x65_d1) bitsLt_bf16_f32

/-- One chunk of the second hidden layer. -/
def hid3Chunk (u : FVec Ideal S512x65 .bf16) (w : Vec Ideal S65x512 .bf16) : FVec Ideal S512x512 .bf16 :=
  truncf .bf16 (maximumf (φ := .f32) (matmul dot_S512x65_S65x512_S512x512_1_0_0_1_n_n none u (shapeCast S65x512 w shapeCasts_S65x512_S65x512 : FVec Ideal S65x512 .bf16) (constant S512x512 .f32 0x00000000#32))
    (broadcast S512x512 (Scalar.ofBits (F := Ideal) .f32 0x00000000#32))) bitsLt_bf16_f32

/-- That chunk's contribution to the output. -/
def outChunk (u : FVec Ideal S512x65 .bf16) (w3 : Vec Ideal S65x512 .bf16) (w4 : Vec Ideal S512x128 .bf16) : FVec Ideal S512x128 .f32 :=
  matmul dot_S512x512_S512x128_S512x128_1_0_0_1_n_n none (hid3Chunk u w3) (shapeCast S512x128 w4 shapeCasts_S512x128_S512x128 : FVec Ideal S512x128 .bf16) (constant S512x128 .f32 0x00000000#32)

/-- The block the body stores. -/
def blockOut (x0 x1 : Vec Ideal S512x33 .bf16) (x2 : Vec Ideal S33x4096 .bf16) (x3 : Vec Ideal S4096x32 .bf16)
    (x4 : Vec Ideal S1x32 .f32) (x5 : Vec Ideal S65x4096 .bf16) (x6 : Vec Ideal S4096x128 .bf16) (x7 : Vec Ideal S1x128 .f32) : FVec Ideal S512x128 .f32 :=
  addf (addf (addf (addf (addf (addf (addf (addf
    (broadcastTo S512x128 (shapeCast S1x128 (View.ld x7 r0_18) shapeCasts_S1x128_S1x128 : FVec Ideal S1x128 .f32) broadcasts_S1x128_S512x128 : FVec Ideal S512x128 .f32)
    (outChunk (paired (feats x0 x1 x2 x3 x4)) (View.ld x5 r0_19) (View.ld x6 r0_20)))
    (outChunk (paired (feats x0 x1 x2 x3 x4)) (View.ld x5 r0_21) (View.ld x6 r0_22)))
    (outChunk (paired (feats x0 x1 x2 x3 x4)) (View.ld x5 r0_23) (View.ld x6 r0_24)))
    (outChunk (paired (feats x0 x1 x2 x3 x4)) (View.ld x5 r0_25) (View.ld x6 r0_26)))
    (outChunk (paired (feats x0 x1 x2 x3 x4)) (View.ld x5 r0_27) (View.ld x6 r0_28)))
    (outChunk (paired (feats x0 x1 x2 x3 x4)) (View.ld x5 r0_29) (View.ld x6 r0_30)))
    (outChunk (paired (feats x0 x1 x2 x3 x4)) (View.ld x5 r0_31) (View.ld x6 r0_32)))
    (outChunk (paired (feats x0 x1 x2 x3 x4)) (View.ld x5 r0_33) (View.ld x6 r0_34))

theorem hz : (![0, 0] : Fin 2 → Nat) = fun _ => 0 := funext fun a => by fin_cases a <;> rfl

/-- The generated name for what the body leaves is this block. -/
theorem out_eq (x0 x1 : Vec Ideal S512x33 .bf16) (x2 : Vec Ideal S33x4096 .bf16) (x3 : Vec Ideal S4096x32 .bf16)
    (x4 : Vec Ideal S1x32 .f32) (x5 : Vec Ideal S65x4096 .bf16) (x6 : Vec Ideal S4096x128 .bf16) (x7 : Vec Ideal S1x128 .f32) :
    out0_8 x0 x1 x2 x3 x4 x5 x6 x7 = blockOut x0 x1 x2 x3 x4 x5 x6 x7 := by
  unfold out0_8
  rw [View.canon_unit_zero hz]
  rfl

/-! ## The pieces at an entry -/

/-- A load of 512 columns of a 33-row block starting at column `o`. -/
theorem ld_cols33 (x2 : Vec Ideal S33x4096 .bf16) (o : Nat) (inb : ∀ a, (![0, o] : Fin 2 → Nat) a + S33x512.size a ≤ S33x4096.size a)
    (ho : o + 512 ≤ 4096) (l : Fin 33) (k : Fin 512) :
    (View.ld x2 (Rect.unit (s := S33x4096) ![0, o] S33x512.size inb) : S33x512.Idx → EReal) (ix2 l k)
      = x2 (ix2 l (⟨o + k.val, by have := k.isLt; omega⟩ : Fin 4096)) := by
  show x2 _ = x2 _
  congr 1
  funext a
  match a with
  | ⟨0, _⟩ => exact Fin.ext (by show 0 + 1 * l.val = l.val; omega)
  | ⟨1, _⟩ => exact Fin.ext (by show o + 1 * k.val = o + k.val; omega)

/-- A load of 512 rows of a 32-column block starting at row `o`. -/
theorem ld_rows32 (x3 : Vec Ideal S4096x32 .bf16) (o : Nat) (inb : ∀ a, (![o, 0] : Fin 2 → Nat) a + S512x32.size a ≤ S4096x32.size a)
    (ho : o + 512 ≤ 4096) (k : Fin 512) (j : Fin 32) :
    (View.ld x3 (Rect.unit (s := S4096x32) ![o, 0] S512x32.size inb) : S512x32.Idx → EReal) (ix2 k j)
      = x3 (ix2 (⟨o + k.val, by have := k.isLt; omega⟩ : Fin 4096) j) := by
  show x3 _ = x3 _
  congr 1
  funext a
  match a with
  | ⟨0, _⟩ => exact Fin.ext (by show o + 1 * k.val = o + k.val; omega)
  | ⟨1, _⟩ => exact Fin.ext (by show 0 + 1 * j.val = j.val; omega)

/-- A load of 512 columns of a 65-row block starting at column `o`. -/
theorem ld_cols65 (x5 : Vec Ideal S65x4096 .bf16) (o : Nat) (inb : ∀ a, (![0, o] : Fin 2 → Nat) a + S65x512.size a ≤ S65x4096.size a)
    (ho : o + 512 ≤ 4096) (l : Fin 65) (k : Fin 512) :
    (View.ld x5 (Rect.unit (s := S65x4096) ![0, o] S65x512.size inb) : S65x512.Idx → EReal) (ix2 l k)
      = x5 (ix2 l (⟨o + k.val, by have := k.isLt; omega⟩ : Fin 4096)) := by
  show x5 _ = x5 _
  congr 1
  funext a
  match a with
  | ⟨0, _⟩ => exact Fin.ext (by show 0 + 1 * l.val = l.val; omega)
  | ⟨1, _⟩ => exact Fin.ext (by show o + 1 * k.val = o + k.val; omega)

/-- A load of 512 rows of a 128-column block starting at row `o`. -/
theorem ld_rows128 (x6 : Vec Ideal S4096x128 .bf16) (o : Nat) (inb : ∀ a, (![o, 0] : Fin 2 → Nat) a + S512x128.size a ≤ S4096x128.size a)
    (ho : o + 512 ≤ 4096) (k : Fin 512) (q : Fin 128) :
    (View.ld x6 (Rect.unit (s := S4096x128) ![o, 0] S512x128.size inb) : S512x128.Idx → EReal) (ix2 k q)
      = x6 (ix2 (⟨o + k.val, by have := k.isLt; omega⟩ : Fin 4096) q) := by
  show x6 _ = x6 _
  congr 1
  funext a
  match a with
  | ⟨0, _⟩ => exact Fin.ext (by show o + 1 * k.val = o + k.val; omega)
  | ⟨1, _⟩ => exact Fin.ext (by show 0 + 1 * q.val = q.val; omega)

/-- A hidden unit of a chunk: relu of the row's product with the chunk's column. -/
theorem hidChunk_apply (x : FVec Ideal S1024x33 .bf16) (w : Vec Ideal S33x512 .bf16) (r : Fin 1024) (k : Fin 512) :
    (hidChunk x w : S1024x512.Idx → EReal) (ix2 r k) = max (∑ l : Fin 33, (x (ix2 r l) : EReal) * (w (ix2 l k) : EReal)) 0 := by
  show max (matmul (F := Ideal) dot_S1024x33_S33x512_S1024x512_1_0_0_1_n_n none x (shapeCast S33x512 w shapeCasts_S33x512_S33x512 : FVec Ideal S33x512 .bf16) (constant S1024x512 .f32 0x00000000#32) (ix2 r k)) (Ideal.ofBits .f32 0x00000000#32) = _
  rw [shapeCast_self, MatmulRead.mm_in, Ideal.ofBits_zero_f32]

/-- A chunk's contribution to a feature: the sum over the chunk's 512 hidden units. -/
theorem featChunk_apply (x : FVec Ideal S1024x33 .bf16) (w1 : Vec Ideal S33x512 .bf16) (w2 : Vec Ideal S512x32 .bf16) (r : Fin 1024) (j : Fin 32) :
    (featChunk x w1 w2 : S1024x32.Idx → EReal) (ix2 r j)
      = ∑ k : Fin 512, max (∑ l : Fin 33, (x (ix2 r l) : EReal) * (w1 (ix2 l k) : EReal)) 0 * (w2 (ix2 k j) : EReal) := by
  unfold featChunk
  rw [shapeCast_self, MatmulRead.mm_feat]
  exact Finset.sum_congr rfl fun k _ => by rw [hidChunk_apply]

/-- With the chunk's weights loaded from columns / rows `512 c ..` of the whole weight blocks, that contribution is
    the `c`-th partial sum of the feature's 4096 terms. -/
theorem featChunk_part (x : FVec Ideal S1024x33 .bf16) (x2 : Vec Ideal S33x4096 .bf16) (x3 : Vec Ideal S4096x32 .bf16)
    (c : Fin 8) (o : Nat) (ho : o = 512 * c.val)
    (inb2 : ∀ a, (![0, o] : Fin 2 → Nat) a + S33x512.size a ≤ S33x4096.size a)
    (inb3 : ∀ a, (![o, 0] : Fin 2 → Nat) a + S512x32.size a ≤ S4096x32.size a) (r : Fin 1024) (j : Fin 32) :
    (featChunk x (View.ld x2 (Rect.unit (s := S33x4096) ![0, o] S33x512.size inb2)) (View.ld x3 (Rect.unit (s := S4096x32) ![o, 0] S512x32.size inb3)) : S1024x32.Idx → EReal) (ix2 r j)
      = Siamese.part (fun k' => Siamese.kHidden (fun l k => (x2 (ix2 l k) : EReal)) (fun l => (x (ix2 r l) : EReal)) k' * (x3 (ix2 k' j) : EReal)) c := by
  have hc : o + 512 ≤ 4096 := by have := c.isLt; omega
  rw [featChunk_apply]
  unfold Siamese.part Siamese.kHidden
  refine Finset.sum_congr rfl fun k _ => ?_
  have e : (⟨o + k.val, by have := k.isLt; omega⟩ : Fin 4096) = ⟨512 * c.val + k.val, by have := c.isLt; have := k.isLt; omega⟩ := Fin.ext (by show o + k.val = 512 * c.val + k.val; omega)
  rw [ld_rows32 x3 o inb3 hc k j, e]
  refine congrArg (fun s => max s 0 * (x3 (ix2 (⟨512 * c.val + k.val, by have := c.isLt; have := k.isLt; omega⟩ : Fin 4096) j) : EReal)) ?_
  exact Finset.sum_congr rfl fun l _ => by rw [ld_cols33 x2 o inb2 hc l k, e]

/-- The same for the second hidden layer and the output. -/
theorem hid3Chunk_apply (u : FVec Ideal S512x65 .bf16) (w : Vec Ideal S65x512 .bf16) (p : Fin 512) (k : Fin 512) :
    (hid3Chunk u w : S512x512.Idx → EReal) (ix2 p k) = max (∑ l : Fin 65, (u (ix2 p l) : EReal) * (w (ix2 l k) : EReal)) 0 := by
  show max (matmul (F := Ideal) dot_S512x65_S65x512_S512x512_1_0_0_1_n_n none u (shapeCast S65x512 w shapeCasts_S65x512_S65x512 : FVec Ideal S65x512 .bf16) (constant S512x512 .f32 0x00000000#32) (ix2 p k)) (Ideal.ofBits .f32 0x00000000#32) = _
  rw [shapeCast_self, MatmulRead.mm_pair, Ideal.ofBits_zero_f32]

theorem outChunk_apply (u : FVec Ideal S512x65 .bf16) (w3 : Vec Ideal S65x512 .bf16) (w4 : Vec Ideal S512x128 .bf16) (p : Fin 512) (q : Fin 128) :
    (outChunk u w3 w4 : S512x128.Idx → EReal) (ix2 p q)
      = ∑ k : Fin 512, max (∑ l : Fin 65, (u (ix2 p l) : EReal) * (w3 (ix2 l k) : EReal)) 0 * (w4 (ix2 k q) : EReal) := by
  unfold outChunk
  rw [shapeCast_self, MatmulRead.mm_out]
  exact Finset.sum_congr rfl fun k _ => by rw [hid3Chunk_apply]

theorem outChunk_part (u : FVec Ideal S512x65 .bf16) (x5 : Vec Ideal S65x4096 .bf16) (x6 : Vec Ideal S4096x128 .bf16)
    (c : Fin 8) (o : Nat) (ho : o = 512 * c.val)
    (inb5 : ∀ a, (![0, o] : Fin 2 → Nat) a + S65x512.size a ≤ S65x4096.size a)
    (inb6 : ∀ a, (![o, 0] : Fin 2 → Nat) a + S512x128.size a ≤ S4096x128.size a) (p : Fin 512) (q : Fin 128) :
    (outChunk u (View.ld x5 (Rect.unit (s := S65x4096) ![0, o] S65x512.size inb5)) (View.ld x6 (Rect.unit (s := S4096x128) ![o, 0] S512x128.size inb6)) : S512x128.Idx → EReal) (ix2 p q)
      = Siamese.part (fun k' => Siamese.kHidden3 (fun l k => (x5 (ix2 l k) : EReal)) (fun l => (u (ix2 p l) : EReal)) k' * (x6 (ix2 k' q) : EReal)) c := by
  have hc : o + 512 ≤ 4096 := by have := c.isLt; omega
  rw [outChunk_apply]
  unfold Siamese.part Siamese.kHidden3
  refine Finset.sum_congr rfl fun k _ => ?_
  have e : (⟨o + k.val, by have := k.isLt; omega⟩ : Fin 4096) = ⟨512 * c.val + k.val, by have := c.isLt; have := k.isLt; omega⟩ := Fin.ext (by show o + k.val = 512 * c.val + k.val; omega)
  rw [ld_rows128 x6 o inb6 hc k q, e]
  refine congrArg (fun s => max s 0 * (x6 (ix2 (⟨512 * c.val + k.val, by have := c.isLt; have := k.isLt; omega⟩ : Fin 4096) q) : EReal)) ?_
  exact Finset.sum_congr rfl fun l _ => by rw [ld_cols65 x5 o inb5 hc l k, e]

/-! ## Rows: the stack of the two input blocks, the bias rows, the re-pairing -/

/-- Rows 0..511 of the stack are the first block's. -/
theorem stacked_lo (x0 x1 : Vec Ideal S512x33 .bf16) (p : Fin 512) (l : Fin 33) :
    (stacked x0 x1 : S1024x33.Idx → EReal) (ix2 (⟨p.val, by have := p.isLt; omega⟩ : Fin 1024) l) = x0 (ix2 p l) := by
  unfold stacked
  rw [shapeCast_self, shapeCast_self]
  exact concatenate_pair_apply_left (t := S1024x33) (s₁ := S512x33) (s₂ := S512x33) 0 x0 x1 _ (ix2 _ l) rfl (ix2 p l)
    (fun b => by match b with | ⟨0, _⟩ => rfl | ⟨1, _⟩ => rfl)

/-- Rows 512..1023 of the stack are the second block's. -/
theorem stacked_hi (x0 x1 : Vec Ideal S512x33 .bf16) (p : Fin 512) (l : Fin 33) :
    (stacked x0 x1 : S1024x33.Idx → EReal) (ix2 (⟨512 + p.val, by have := p.isLt; omega⟩ : Fin 1024) l) = x1 (ix2 p l) := by
  unfold stacked
  rw [shapeCast_self, shapeCast_self]
  exact concatenate_pair_apply_right (t := S1024x33) (s₁ := S512x33) (s₂ := S512x33) 0 x0 x1 _ (ix2 _ l) rfl rfl (ix2 p l)
    (fun b hb => by match b, hb with | ⟨0, _⟩, hb => exact absurd rfl hb | ⟨1, _⟩, _ => rfl)
    (by show p.val + 512 = 512 + p.val; omega)

/-- The second bias, a one-row block, broadcast down the 1024 rows. -/
theorem biasRow32 (x4 : Vec Ideal S1x32 .f32) (r : Fin 1024) (j : Fin 32) :
    (broadcastTo S1024x32 (shapeCast S1x32 (View.ld x4 r0_1) shapeCasts_S1x32_S1x32 : FVec Ideal S1x32 .f32) broadcasts_S1x32_S1024x32 : S1024x32.Idx → EReal) (ix2 r j)
      = x4 (ix2 (0 : Fin 1) j) := by
  have e : (shapeCast S1x32 (View.ld x4 r0_1) shapeCasts_S1x32_S1x32 : FVec Ideal S1x32 .f32) = x4 := by
    rw [View.ld_unit_zero (S := S1x32) hz]
    exact shapeCast_self (s := S1x32) x4 _
  refine (broadcastTo_apply _ broadcasts_S1x32_S1024x32 (ix2 r j) (ix2 (0 : Fin 1) j) (fun a => by
    match a with
    | ⟨0, _⟩ => show (0 : Nat) = if (1 : Nat) = 1 then 0 else r.val; rw [if_pos rfl]
    | ⟨1, _⟩ => show j.val = if (32 : Nat) = 1 then 0 else j.val; rw [if_neg (by decide)])).trans (congrFun e _)

/-- The fourth bias, a one-row block, broadcast down the 512 rows. -/
theorem biasRow128 (x7 : Vec Ideal S1x128 .f32) (p : Fin 512) (q : Fin 128) :
    (broadcastTo S512x128 (shapeCast S1x128 (View.ld x7 r0_18) shapeCasts_S1x128_S1x128 : FVec Ideal S1x128 .f32) broadcasts_S1x128_S512x128 : S512x128.Idx → EReal) (ix2 p q)
      = x7 (ix2 (0 : Fin 1) q) := by
  have e : (shapeCast S1x128 (View.ld x7 r0_18) shapeCasts_S1x128_S1x128 : FVec Ideal S1x128 .f32) = x7 := by
    rw [View.ld_unit_zero (S := S1x128) hz]
    exact shapeCast_self (s := S1x128) x7 _
  refine (broadcastTo_apply _ broadcasts_S1x128_S512x128 (ix2 p q) (ix2 (0 : Fin 1) q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])).trans (congrFun e _)

/-- A feature of a stacked row: the bias plus the eight chunks in order, then relu. -/
theorem feats_apply (x0 x1 : Vec Ideal S512x33 .bf16) (x2 : Vec Ideal S33x4096 .bf16) (x3 : Vec Ideal S4096x32 .bf16) (x4 : Vec Ideal S1x32 .f32)
    (r : Fin 1024) (j : Fin 32) :
    (feats x0 x1 x2 x3 x4 : S1024x32.Idx → EReal) (ix2 r j)
      = Siamese.kFeature (fun l k => (x2 (ix2 l k) : EReal)) (fun k j' => (x3 (ix2 k j') : EReal)) (fun j' => (x4 (ix2 (0 : Fin 1) j') : EReal))
          (fun l => ((stacked x0 x1 : S1024x33.Idx → EReal) (ix2 r l) : EReal)) j := by
  unfold feats Siamese.kFeature Siamese.chunked
  simp only [View.ld_unit_zero (S := S512x33) hz, maximumf_apply, addf_apply, broadcast_apply]
  rw [biasRow32,
    featChunk_part _ x2 x3 0 0 rfl, featChunk_part _ x2 x3 1 512 rfl, featChunk_part _ x2 x3 2 1024 rfl,
    featChunk_part _ x2 x3 3 1536 rfl, featChunk_part _ x2 x3 4 2048 rfl, featChunk_part _ x2 x3 5 2560 rfl,
    featChunk_part _ x2 x3 6 3072 rfl, featChunk_part _ x2 x3 7 3584 rfl]
  rw [show (Scalar.ofBits (F := Ideal) .f32 0x00000000#32 : EReal) = 0 from Ideal.ofBits_zero_f32]

/-- The re-paired row: the features of stacked row `p`, those of stacked row `512 + p`, then a one. -/
theorem paired_apply (o : FVec Ideal S1024x32 .f32) (p : Fin 512) (l : Fin 65) :
    (paired o : S512x65.Idx → EReal) (ix2 p l)
      = Siamese.kJoined (fun j => (o (ix2 (⟨p.val, by have := p.isLt; omega⟩ : Fin 1024) j) : EReal))
          (fun j => (o (ix2 (⟨512 + p.val, by have := p.isLt; omega⟩ : Fin 1024) j) : EReal)) l := by
  unfold paired Siamese.kJoined
  rw [truncf_apply]
  by_cases h : l.val < 32
  · rw [dif_pos h]
    refine (concatenate_apply_piece (t := S512x65) 1 _ _ (ix2 p l) 0 (by show (0 : Nat) < 3; omega) S512x32 _ rfl rfl 0 rfl
      (ix2 p (⟨l.val, h⟩ : Fin 32)) ?_ ?_).trans ?_
    · intro b hb
      match b, hb with
      | ⟨0, _⟩, _ => rfl
      | ⟨1, _⟩, hb => exact absurd rfl hb
    · show 0 + l.val = l.val; omega
    · exact extractStridedSlice_apply _ o _ (ix2 p (⟨l.val, h⟩ : Fin 32)) (ix2 (⟨p.val, by have := p.isLt; omega⟩ : Fin 1024) (⟨l.val, h⟩ : Fin 32))
        (fun a => by match a with
          | ⟨0, _⟩ => show p.val = 0 + p.val; omega
          | ⟨1, _⟩ => show l.val = 0 + l.val; omega)
  · rw [dif_neg h]
    by_cases h' : l.val < 64
    · rw [dif_pos h']
      have h2 : l.val - 32 < 32 := by omega
      refine (concatenate_apply_piece (t := S512x65) 1 _ _ (ix2 p l) 1 (by show (1 : Nat) < 3; omega) S512x32 _ rfl rfl 32 rfl
        (ix2 p (⟨l.val - 32, h2⟩ : Fin 32)) ?_ ?_).trans ?_
      · intro b hb
        match b, hb with
        | ⟨0, _⟩, _ => rfl
        | ⟨1, _⟩, hb => exact absurd rfl hb
      · show 32 + (l.val - 32) = l.val; omega
      · exact extractStridedSlice_apply _ o _ (ix2 p (⟨l.val - 32, h2⟩ : Fin 32)) (ix2 (⟨512 + p.val, by have := p.isLt; omega⟩ : Fin 1024) (⟨l.val - 32, h2⟩ : Fin 32))
          (fun a => by match a with
            | ⟨0, _⟩ => show 512 + p.val = 512 + p.val; rfl
            | ⟨1, _⟩ => show l.val - 32 = 0 + (l.val - 32); omega)
    · rw [dif_neg h']
      have h64 : l.val = 64 := by have := l.isLt; omega
      refine (concatenate_apply_piece (t := S512x65) 1 _ _ (ix2 p l) 2 (by show (2 : Nat) < 3; omega) S512x1 _ rfl rfl 64 rfl
        (ix2 p (0 : Fin 1)) ?_ ?_).trans ?_
      · intro b hb
        match b, hb with
        | ⟨0, _⟩, _ => rfl
        | ⟨1, _⟩, hb => exact absurd rfl hb
      · show 64 + 0 = l.val; omega
      · exact Ideal.ofBits_one_f32

/-! ## The block -/

/-- Entry `(p, q)` of the block the body stores. -/
theorem out_apply (x0 x1 : Vec Ideal S512x33 .bf16) (x2 : Vec Ideal S33x4096 .bf16) (x3 : Vec Ideal S4096x32 .bf16)
    (x4 : Vec Ideal S1x32 .f32) (x5 : Vec Ideal S65x4096 .bf16) (x6 : Vec Ideal S4096x128 .bf16) (x7 : Vec Ideal S1x128 .f32)
    (p : Fin 512) (q : Fin 128) :
    (out0_8 x0 x1 x2 x3 x4 x5 x6 x7 : S512x128.Idx → EReal) (ix2 p q)
      = Siamese.kNet (fun l k => (x2 (ix2 l k) : EReal)) (fun k j => (x3 (ix2 k j) : EReal)) (fun j => (x4 (ix2 (0 : Fin 1) j) : EReal))
          (fun l k => (x5 (ix2 l k) : EReal)) (fun k q' => (x6 (ix2 k q') : EReal)) (fun q' => (x7 (ix2 (0 : Fin 1) q') : EReal))
          (fun l => (x0 (ix2 p l) : EReal)) (fun l => (x1 (ix2 p l) : EReal)) q := by
  have hu : (fun l : Fin 65 => ((paired (feats x0 x1 x2 x3 x4) : S512x65.Idx → EReal) (ix2 p l) : EReal))
      = Siamese.kJoined
          (Siamese.kFeature (fun l k => (x2 (ix2 l k) : EReal)) (fun k j => (x3 (ix2 k j) : EReal)) (fun j => (x4 (ix2 (0 : Fin 1) j) : EReal)) (fun l => (x0 (ix2 p l) : EReal)))
          (Siamese.kFeature (fun l k => (x2 (ix2 l k) : EReal)) (fun k j => (x3 (ix2 k j) : EReal)) (fun j => (x4 (ix2 (0 : Fin 1) j) : EReal)) (fun l => (x1 (ix2 p l) : EReal))) := by
    funext l
    rw [paired_apply]
    congr 1
    · funext j
      rw [feats_apply]
      exact congrArg (fun x => Siamese.kFeature _ _ _ x j) (funext fun l' => stacked_lo x0 x1 p l')
    · funext j
      rw [feats_apply]
      exact congrArg (fun x => Siamese.kFeature _ _ _ x j) (funext fun l' => stacked_hi x0 x1 p l')
  rw [out_eq]
  unfold blockOut Siamese.kNet Siamese.kOutput Siamese.chunked
  simp only [addf_apply]
  rw [biasRow128,
    outChunk_part _ x5 x6 0 0 rfl, outChunk_part _ x5 x6 1 512 rfl, outChunk_part _ x5 x6 2 1024 rfl,
    outChunk_part _ x5 x6 3 1536 rfl, outChunk_part _ x5 x6 4 2048 rfl, outChunk_part _ x5 x6 5 2560 rfl,
    outChunk_part _ x5 x6 6 3072 rfl, outChunk_part _ x5 x6 7 3584 rfl]
  rw [hu]

end Cert.KernelIdeal.Body

end
-- ==== Proof.HostArrays.lean ====
/-
  What the kernel's windows find in their arrays when the region is entered. Before the region the program builds,
  from the ten arguments: the two input arrays with a column of ones appended (33 columns), the first and third
  weight matrices with their bias appended as a last row (33 and 65 rows), the second and fourth weight matrices
  unchanged, and the second and fourth biases as one-row matrices. Each is read here at an entry.
-/
import proofs.«174498_g11802570129985_cont_fleet_79_5_alg».proof.Proof.Gen.KernelIdeal.Frame
import proofs.«174498_g11802570129985_cont_fleet_79_5_alg».proof.Proof.NetMath
import Idealize.ShloMosaic.Lib.Pipeline.Value
import Idealize.ShloMosaic.Lib.ValueIdx
import Idealize.ShloMosaic.Lib.ValueLayout
import Idealize.ShloMosaic.Lib.StableHlo.Run
import Idealize.ShloMosaic.Lib.IdealHost

noncomputable section

namespace Cert.KernelIdeal.HostArrays

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The pieces the program assembles, read at an entry -/

/-- A scalar one spread over a column reads one everywhere. -/
private theorem onesCol_apply (j : S16384x1.Idx) :
    broadcastInDim S16384x1 ![] bcast_S_S16384x1 (constant (F := Ideal) S_ .f32 0x3F800000#32) j = 1 := by
  refine (broadcastInDim_apply _ bcast_S_S16384x1 _ j ix0 (fun a => a.elim0)).trans ?_
  rw [constant_apply, Ideal.ofBits_one_f32]

/-- An input with the column of ones appended on the right: entry `(r, l)` is the input's for `l < 32`, and one at `l = 32`. -/
private theorem appendOnes_apply (x : S16384x32.Idx → EReal) (r : Fin 16384) (l : Fin 33) :
    concatenate S16384x33 1 [⟨S16384x32, x⟩,
        ⟨S16384x1, broadcastInDim S16384x1 ![] bcast_S_S16384x1 (constant (F := Ideal) S_ .f32 0x3F800000#32)⟩]
      concatenates_S16384x32_S16384x1_S16384x33_d1 (ix2 r l)
      = Siamese.withOne (fun l' => x (ix2 r l')) l := by
  unfold Siamese.withOne
  by_cases h : l.val < 32
  · rw [dif_pos h]
    exact concatenate_pair_apply_left (s₂ := S16384x1) _ x _ _ (ix2 r l) rfl (ix2 r ⟨l.val, h⟩)
      (fun b => match b with | ⟨0, _⟩ => rfl | ⟨1, _⟩ => rfl)
  · rw [dif_neg h]
    have hl : l.val = 32 := by have := l.isLt; omega
    refine (concatenate_pair_apply_right (s₂ := S16384x1) _ x _ _ (ix2 r l) rfl rfl (ix2 r (0 : Fin 1))
      (fun b => match b with | ⟨0, _⟩ => fun _ => rfl | ⟨1, _⟩ => fun hb => absurd rfl hb) ?_).trans (onesCol_apply _)
    show 0 + 32 = l.val
    omega

/-- A bias spread as a one-row matrix reads the bias at the column. -/
private theorem biasRow_apply (b : S4096.Idx → EReal) (u : Fin 1) (k : Fin 4096) :
    broadcastInDim S1x4096 ![1] bcast_S4096_S1x4096_1 b (ix2 u k) = b (ix1 k) :=
  broadcastInDim_apply _ bcast_S4096_S1x4096_1 b (ix2 u k) (ix1 k) (fun a => match a with
    | ⟨0, _⟩ => by show k.val = if (4096 : Nat) = 1 then 0 else k.val; rw [if_neg (by decide)])

/-- A 32-row weight matrix with its bias row appended below: row `l < 32` is the matrix's, row 32 the bias. -/
private theorem appendBias32_apply (W : S32x4096.Idx → EReal) (b : S4096.Idx → EReal) (l : Fin 33) (k : Fin 4096) :
    concatenate S33x4096 0 [⟨S32x4096, W⟩, ⟨S1x4096, broadcastInDim S1x4096 ![1] bcast_S4096_S1x4096_1 b⟩]
      concatenates_S32x4096_S1x4096_S33x4096_d0 (ix2 l k)
      = Siamese.withBias (fun l' k' => W (ix2 l' k')) (fun k' => b (ix1 k')) l k := by
  unfold Siamese.withBias
  by_cases h : l.val < 32
  · rw [dif_pos h]
    exact concatenate_pair_apply_left (s₂ := S1x4096) _ W _ _ (ix2 l k) rfl (ix2 ⟨l.val, h⟩ k)
      (fun a => match a with | ⟨0, _⟩ => rfl | ⟨1, _⟩ => rfl)
  · rw [dif_neg h]
    have hl : l.val = 32 := by have := l.isLt; omega
    refine (concatenate_pair_apply_right (s₂ := S1x4096) _ W _ _ (ix2 l k) rfl rfl (ix2 (0 : Fin 1) k)
      (fun a => match a with | ⟨0, _⟩ => fun ha => absurd rfl ha | ⟨1, _⟩ => fun _ => rfl) ?_).trans (biasRow_apply b _ k)
    show 0 + 32 = l.val
    omega

/-- A 64-row weight matrix with its bias row appended below: row `l < 64` is the matrix's, row 64 the bias. -/
private theorem appendBias64_apply (W : S64x4096.Idx → EReal) (b : S4096.Idx → EReal) (l : Fin 65) (k : Fin 4096) :
    concatenate S65x4096 0 [⟨S64x4096, W⟩, ⟨S1x4096, broadcastInDim S1x4096 ![1] bcast_S4096_S1x4096_1 b⟩]
      concatenates_S64x4096_S1x4096_S65x4096_d0 (ix2 l k)
      = Siamese.withBias (fun l' k' => W (ix2 l' k')) (fun k' => b (ix1 k')) l k := by
  unfold Siamese.withBias
  by_cases h : l.val < 64
  · rw [dif_pos h]
    exact concatenate_pair_apply_left (s₂ := S1x4096) _ W _ _ (ix2 l k) rfl (ix2 ⟨l.val, h⟩ k)
      (fun a => match a with | ⟨0, _⟩ => rfl | ⟨1, _⟩ => rfl)
  · rw [dif_neg h]
    have hl : l.val = 64 := by have := l.isLt; omega
    refine (concatenate_pair_apply_right (s₂ := S1x4096) _ W _ _ (ix2 l k) rfl rfl (ix2 (0 : Fin 1) k)
      (fun a => match a with | ⟨0, _⟩ => fun ha => absurd rfl ha | ⟨1, _⟩ => fun _ => rfl) ?_).trans (biasRow_apply b _ k)
    show 0 + 64 = l.val
    omega

/-! ## The arrays the region finds -/

/-- The first input with its ones column: entry `(r, l)` is row `r` of the argument with a `1` appended. -/
theorem sAug_apply (c : Dev nD) (r : Fin 16384) (l : Fin 33) :
    (V m c main_v2 : S16384x33.Idx → EReal) (ix2 r l)
      = Siamese.withOne (fun l' => (m ((c : Thread nD τ).loc main_arg0) : S16384x32.Idx → EReal) (ix2 r l')) l := by
  have e : (V m c main_v2 : S16384x33.Idx → EReal)
      = (truncf (F := Ideal) (s := S16384x33) (φ := .f32) .bf16
          (concatenate S16384x33 1 [⟨S16384x32, (m ((c : Thread nD τ).loc main_arg0) : S16384x32.Idx → EReal)⟩,
              ⟨S16384x1, broadcastInDim S16384x1 ![] bcast_S_S16384x1 (constant (F := Ideal) S_ .f32 0x3F800000#32)⟩]
            concatenates_S16384x32_S16384x1_S16384x33_d1) bitsLt_bf16_f32 : FVec Ideal S16384x33 .bf16) := by
    dsimp only [Gen.V, Gen.hostOps0]; after_results <;> rfl
  rw [e, truncf_apply]
  exact appendOnes_apply _ r l

/-- The second input likewise. -/
theorem nAug_apply (c : Dev nD) (r : Fin 16384) (l : Fin 33) :
    (V m c main_v4 : S16384x33.Idx → EReal) (ix2 r l)
      = Siamese.withOne (fun l' => (m ((c : Thread nD τ).loc main_arg1) : S16384x32.Idx → EReal) (ix2 r l')) l := by
  have e : (V m c main_v4 : S16384x33.Idx → EReal)
      = (truncf (F := Ideal) (s := S16384x33) (φ := .f32) .bf16
          (concatenate S16384x33 1 [⟨S16384x32, (m ((c : Thread nD τ).loc main_arg1) : S16384x32.Idx → EReal)⟩,
              ⟨S16384x1, broadcastInDim S16384x1 ![] bcast_S_S16384x1 (constant (F := Ideal) S_ .f32 0x3F800000#32)⟩]
            concatenates_S16384x32_S16384x1_S16384x33_d1) bitsLt_bf16_f32 : FVec Ideal S16384x33 .bf16) := by
    dsimp only [Gen.V, Gen.hostOps0]; after_results <;> rfl
  rw [e, truncf_apply]
  exact appendOnes_apply _ r l

/-- The first weight matrix with its bias as row 32. -/
theorem w1Aug_apply (c : Dev nD) (l : Fin 33) (k : Fin 4096) :
    (V m c main_v7 : S33x4096.Idx → EReal) (ix2 l k)
      = Siamese.withBias (fun l' k' => (m ((c : Thread nD τ).loc main_arg2) : S32x4096.Idx → EReal) (ix2 l' k'))
          (fun k' => (m ((c : Thread nD τ).loc main_arg3) : S4096.Idx → EReal) (ix1 k')) l k := by
  have e : (V m c main_v7 : S33x4096.Idx → EReal)
      = (truncf (F := Ideal) (s := S33x4096) (φ := .f32) .bf16
          (concatenate S33x4096 0 [⟨S32x4096, (m ((c : Thread nD τ).loc main_arg2) : S32x4096.Idx → EReal)⟩,
              ⟨S1x4096, broadcastInDim S1x4096 ![1] bcast_S4096_S1x4096_1 (m ((c : Thread nD τ).loc main_arg3) : S4096.Idx → EReal)⟩]
            concatenates_S32x4096_S1x4096_S33x4096_d0) bitsLt_bf16_f32 : FVec Ideal S33x4096 .bf16) := by
    dsimp only [Gen.V, Gen.hostOps0]; after_results <;> rfl
  rw [e, truncf_apply]
  exact appendBias32_apply _ _ l k

/-- The third weight matrix with its bias as row 64. -/
theorem w3Aug_apply (c : Dev nD) (l : Fin 65) (k : Fin 4096) :
    (V m c main_v10 : S65x4096.Idx → EReal) (ix2 l k)
      = Siamese.withBias (fun l' k' => (m ((c : Thread nD τ).loc main_arg6) : S64x4096.Idx → EReal) (ix2 l' k'))
          (fun k' => (m ((c : Thread nD τ).loc main_arg7) : S4096.Idx → EReal) (ix1 k')) l k := by
  have e : (V m c main_v10 : S65x4096.Idx → EReal)
      = (truncf (F := Ideal) (s := S65x4096) (φ := .f32) .bf16
          (concatenate S65x4096 0 [⟨S64x4096, (m ((c : Thread nD τ).loc main_arg6) : S64x4096.Idx → EReal)⟩,
              ⟨S1x4096, broadcastInDim S1x4096 ![1] bcast_S4096_S1x4096_1 (m ((c : Thread nD τ).loc main_arg7) : S4096.Idx → EReal)⟩]
            concatenates_S64x4096_S1x4096_S65x4096_d0) bitsLt_bf16_f32 : FVec Ideal S65x4096 .bf16) := by
    dsimp only [Gen.V, Gen.hostOps0]; after_results <;> rfl
  rw [e, truncf_apply]
  exact appendBias64_apply _ _ l k

/-- The second weight matrix, unchanged. -/
theorem w2_apply (c : Dev nD) (k : Fin 4096) (j : Fin 32) :
    (V m c main_v11 : S4096x32.Idx → EReal) (ix2 k j) = (m ((c : Thread nD τ).loc main_arg4) : S4096x32.Idx → EReal) (ix2 k j) := by
  have e : (V m c main_v11 : S4096x32.Idx → EReal)
      = (truncf (F := Ideal) (s := S4096x32) (φ := .f32) .bf16 (m ((c : Thread nD τ).loc main_arg4)) bitsLt_bf16_f32 : FVec Ideal S4096x32 .bf16) := by
    dsimp only [Gen.V, Gen.hostOps0]; after_results <;> rfl
  rw [e, truncf_apply]

/-- The fourth weight matrix, unchanged. -/
theorem w4_apply (c : Dev nD) (k : Fin 4096) (q : Fin 128) :
    (V m c main_v12 : S4096x128.Idx → EReal) (ix2 k q) = (m ((c : Thread nD τ).loc main_arg8) : S4096x128.Idx → EReal) (ix2 k q) := by
  have e : (V m c main_v12 : S4096x128.Idx → EReal)
      = (truncf (F := Ideal) (s := S4096x128) (φ := .f32) .bf16 (m ((c : Thread nD τ).loc main_arg8)) bitsLt_bf16_f32 : FVec Ideal S4096x128 .bf16) := by
    dsimp only [Gen.V, Gen.hostOps0]; after_results <;> rfl
  rw [e, truncf_apply]

/-- The second bias as a one-row matrix. -/
theorem b2_apply (c : Dev nD) (j : Fin 32) :
    (V m c main_v13 : S1x32.Idx → EReal) (ix2 (0 : Fin 1) j) = (m ((c : Thread nD τ).loc main_arg5) : S32.Idx → EReal) (ix1 j) := by
  have e : (V m c main_v13 : S1x32.Idx → EReal)
      = (shapeCast S1x32 (m ((c : Thread nD τ).loc main_arg5) : S32.Idx → EReal) shapeCasts_S32_S1x32 : S1x32.Idx → EReal) := by
    dsimp only [Gen.V, Gen.hostOps0]; after_results <;> rfl
  rw [e]
  exact shapeCast_a_1a_apply _ _ _ _

/-- The fourth bias as a one-row matrix. -/
theorem b4_apply (c : Dev nD) (q : Fin 128) :
    (V m c main_v14 : S1x128.Idx → EReal) (ix2 (0 : Fin 1) q) = (m ((c : Thread nD τ).loc main_arg9) : S128.Idx → EReal) (ix1 q) := by
  have e : (V m c main_v14 : S1x128.Idx → EReal)
      = (shapeCast S1x128 (m ((c : Thread nD τ).loc main_arg9) : S128.Idx → EReal) shapeCasts_S128_S1x128 : S1x128.Idx → EReal) := by
    dsimp only [Gen.V, Gen.hostOps0]; after_results <;> rfl
  rw [e]
  exact shapeCast_a_1a_apply _ _ _ _

end Cert.KernelIdeal.HostArrays

end
-- ==== Proof.WholeArray.lean ====
/-
  From blocks to the array. Grid point `t` (of 32) stages rows `512 t .. 512 t + 511` of the two augmented inputs and
  the whole of every weight array, and writes back rows `512 t .. 512 t + 511` of the result. What it writes is, entry
  by entry, the network on the corresponding rows of the arguments (the body's block, the arrays the region finds, and
  the law that the kernel's arrangement of the network is the network); the 32 blocks tile the result array; so the
  array ends as the network of the argument arrays, row by row.
-/
import proofs.«174498_g11802570129985_cont_fleet_79_5_alg».proof.Proof.Gen.KernelIdeal.Value
import proofs.«174498_g11802570129985_cont_fleet_79_5_alg».proof.Proof.Body
import proofs.«174498_g11802570129985_cont_fleet_79_5_alg».proof.Proof.HostArrays
import proofs.«174498_g11802570129985_cont_fleet_79_5_alg».proof.Proof.NetArray

noncomputable section

namespace Cert.KernelIdeal.WholeArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The network of the argument arrays as launched. -/
abbrev result (c : Dev nD) : S16384x128.Idx → EReal :=
  Siamese.netArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The index maps, decided over the 32 grid points: windows 0, 1 and 8 are at block row `t`, every other window at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-! ## The staged blocks read off their arrays -/

/-- Window 0 stages rows `512 t ..` of the first augmented input. -/
theorem blk0_apply (c : Dev nD) (t : Fin cfg0.N) (p : Fin 512) (l : Fin 33) :
    (iblk m c 0 t : S512x33.Idx → EReal) (ix2 p l)
      = (V m c main_v2 : S16384x33.Idx → EReal) (ix2 (⟨512 * t.val + p.val, by have : t.val < 32 := t.isLt; have := p.isLt; omega⟩ : Fin 16384) l) := by
  obtain ⟨e0, e1, -⟩ := idx_facts t
  show V m c main_v2 (((cfg0.win 0).blk t).view.emb (ix2 p l)) = _
  congr 1
  funext d
  match d with
  | ⟨0, _⟩ => exact Fin.ext (by show win0_0.index t (0 : Fin 2) * 512 + 1 * p.val = 512 * t.val + p.val; omega)
  | ⟨1, _⟩ => exact Fin.ext (by show win0_0.index t (1 : Fin 2) * 33 + 1 * l.val = l.val; omega)

/-- Window 1 stages rows `512 t ..` of the second augmented input. -/
theorem blk1_apply (c : Dev nD) (t : Fin cfg0.N) (p : Fin 512) (l : Fin 33) :
    (iblk m c 1 t : S512x33.Idx → EReal) (ix2 p l)
      = (V m c main_v4 : S16384x33.Idx → EReal) (ix2 (⟨512 * t.val + p.val, by have : t.val < 32 := t.isLt; have := p.isLt; omega⟩ : Fin 16384) l) := by
  obtain ⟨-, -, e0, e1, -⟩ := idx_facts t
  show V m c main_v4 (((cfg0.win 1).blk t).view.emb (ix2 p l)) = _
  congr 1
  funext d
  match d with
  | ⟨0, _⟩ => exact Fin.ext (by show win0_1.index t (0 : Fin 2) * 512 + 1 * p.val = 512 * t.val + p.val; omega)
  | ⟨1, _⟩ => exact Fin.ext (by show win0_1.index t (1 : Fin 2) * 33 + 1 * l.val = l.val; omega)

/-- Window 2 stages its whole array at every point. -/
theorem blk2_apply (c : Dev nD) (t : Fin cfg0.N) (a : Fin 33) (b : Fin 4096) :
    (iblk m c 2 t : S33x4096.Idx → EReal) (ix2 a b) = (V m c main_v7 : S33x4096.Idx → EReal) (ix2 a b) := by
  obtain ⟨-, -, -, -, e20, e21, e30, e31, e40, e41, e50, e51, e60, e61, e70, e71, -, -⟩ := idx_facts t
  show V m c main_v7 (((cfg0.win 2).blk t).view.emb (ix2 a b)) = _
  congr 1
  funext d
  match d with
  | ⟨0, _⟩ => exact Fin.ext (by show win0_2.index t (0 : Fin 2) * 33 + 1 * a.val = a.val; omega)
  | ⟨1, _⟩ => exact Fin.ext (by show win0_2.index t (1 : Fin 2) * 4096 + 1 * b.val = b.val; omega)

/-- Window 3 stages its whole array at every point. -/
theorem blk3_apply (c : Dev nD) (t : Fin cfg0.N) (a : Fin 4096) (b : Fin 32) :
    (iblk m c 3 t : S4096x32.Idx → EReal) (ix2 a b) = (V m c main_v11 : S4096x32.Idx → EReal) (ix2 a b) := by
  obtain ⟨-, -, -, -, e20, e21, e30, e31, e40, e41, e50, e51, e60, e61, e70, e71, -, -⟩ := idx_facts t
  show V m c main_v11 (((cfg0.win 3).blk t).view.emb (ix2 a b)) = _
  congr 1
  funext d
  match d with
  | ⟨0, _⟩ => exact Fin.ext (by show win0_3.index t (0 : Fin 2) * 4096 + 1 * a.val = a.val; omega)
  | ⟨1, _⟩ => exact Fin.ext (by show win0_3.index t (1 : Fin 2) * 32 + 1 * b.val = b.val; omega)

/-- Window 4 stages its whole array at every point. -/
theorem blk4_apply (c : Dev nD) (t : Fin cfg0.N) (a : Fin 1) (b : Fin 32) :
    (iblk m c 4 t : S1x32.Idx → EReal) (ix2 a b) = (V m c main_v13 : S1x32.Idx → EReal) (ix2 a b) := by
  obtain ⟨-, -, -, -, e20, e21, e30, e31, e40, e41, e50, e51, e60, e61, e70, e71, -, -⟩ := idx_facts t
  show V m c main_v13 (((cfg0.win 4).blk t).view.emb (ix2 a b)) = _
  congr 1
  funext d
  match d with
  | ⟨0, _⟩ => exact Fin.ext (by show win0_4.index t (0 : Fin 2) * 1 + 1 * a.val = a.val; omega)
  | ⟨1, _⟩ => exact Fin.ext (by show win0_4.index t (1 : Fin 2) * 32 + 1 * b.val = b.val; omega)

/-- Window 5 stages its whole array at every point. -/
theorem blk5_apply (c : Dev nD) (t : Fin cfg0.N) (a : Fin 65) (b : Fin 4096) :
    (iblk m c 5 t : S65x4096.Idx → EReal) (ix2 a b) = (V m c main_v10 : S65x4096.Idx → EReal) (ix2 a b) := by
  obtain ⟨-, -, -, -, e20, e21, e30, e31, e40, e41, e50, e51, e60, e61, e70, e71, -, -⟩ := idx_facts t
  show V m c main_v10 (((cfg0.win 5).blk t).view.emb (ix2 a b)) = _
  congr 1
  funext d
  match d with
  | ⟨0, _⟩ => exact Fin.ext (by show win0_5.index t (0 : Fin 2) * 65 + 1 * a.val = a.val; omega)
  | ⟨1, _⟩ => exact Fin.ext (by show win0_5.index t (1 : Fin 2) * 4096 + 1 * b.val = b.val; omega)

/-- Window 6 stages its whole array at every point. -/
theorem blk6_apply (c : Dev nD) (t : Fin cfg0.N) (a : Fin 4096) (b : Fin 128) :
    (iblk m c 6 t : S4096x128.Idx → EReal) (ix2 a b) = (V m c main_v12 : S4096x128.Idx → EReal) (ix2 a b) := by
  obtain ⟨-, -, -, -, e20, e21, e30, e31, e40, e41, e50, e51, e60, e61, e70, e71, -, -⟩ := idx_facts t
  show V m c main_v12 (((cfg0.win 6).blk t).view.emb (ix2 a b)) = _
  congr 1
  funext d
  match d with
  | ⟨0, _⟩ => exact Fin.ext (by show win0_6.index t (0 : Fin 2) * 4096 + 1 * a.val = a.val; omega)
  | ⟨1, _⟩ => exact Fin.ext (by show win0_6.index t (1 : Fin 2) * 128 + 1 * b.val = b.val; omega)

/-- Window 7 stages its whole array at every point. -/
theorem blk7_apply (c : Dev nD) (t : Fin cfg0.N) (a : Fin 1) (b : Fin 128) :
    (iblk m c 7 t : S1x128.Idx → EReal) (ix2 a b) = (V m c main_v14 : S1x128.Idx → EReal) (ix2 a b) := by
  obtain ⟨-, -, -, -, e20, e21, e30, e31, e40, e41, e50, e51, e60, e61, e70, e71, -, -⟩ := idx_facts t
  show V m c main_v14 (((cfg0.win 7).blk t).view.emb (ix2 a b)) = _
  congr 1
  funext d
  match d with
  | ⟨0, _⟩ => exact Fin.ext (by show win0_7.index t (0 : Fin 2) * 1 + 1 * a.val = a.val; omega)
  | ⟨1, _⟩ => exact Fin.ext (by show win0_7.index t (1 : Fin 2) * 128 + 1 * b.val = b.val; omega)

/-! ## What a point writes back -/

/-- Entry `(p, q)` of point `t`'s block of the result array is entry `(512 t + p, q)` of the array. -/
theorem emb8 (t : Fin cfg0.N) (p : Fin 512) (q : Fin 128) :
    ((cfg0.win 8).blk t).view.emb (ix2 p q)
      = ix2 (⟨512 * t.val + p.val, by have : t.val < 32 := t.isLt; have := p.isLt; omega⟩ : Fin 16384) q := by
  obtain ⟨-, -, -, -, -, -, -, -, -, -, -, -, -, -, -, -, e0, e1⟩ := idx_facts t
  funext d
  match d with
  | ⟨0, _⟩ => exact Fin.ext (by show win0_8.index t (0 : Fin 2) * 512 + 1 * p.val = 512 * t.val + p.val; omega)
  | ⟨1, _⟩ => exact Fin.ext (by show win0_8.index t (1 : Fin 2) * 128 + 1 * q.val = q.val; omega)

/-- What point `t` writes back is block `t` of the network of the argument arrays. -/
theorem flushed_eq (c : Dev nD) (t : Fin cfg0.N) :
    (dats m 0 c).flushed 8 t = ((cfg0.win 8).blk t).view.read (Elt Ideal) (result m c) := by
  rw [Value.flushed8]
  funext y
  obtain ⟨p, q, rfl⟩ : ∃ (p : Fin 512) (q : Fin 128), y = ix2 p q := ⟨y 0, y 1, eq_ix2 y⟩
  show (out0_8 (iblk m c 0 t) (iblk m c 1 t) (iblk m c 2 t) (iblk m c 3 t) (iblk m c 4 t) (iblk m c 5 t) (iblk m c 6 t) (iblk m c 7 t) : S512x128.Idx → EReal) (ix2 p q)
    = result m c (((cfg0.win 8).blk t).view.emb (ix2 p q))
  have h0 : (fun l : Fin 33 => ((iblk m c 0 t : S512x33.Idx → EReal) (ix2 p l) : EReal))
      = Siamese.withOne (fun l' => ((m ((c : Thread nD τ).loc main_arg0)) : S16384x32.Idx → EReal) (ix2 (⟨512 * t.val + p.val, by have : t.val < 32 := t.isLt; have := p.isLt; omega⟩ : Fin 16384) l')) :=
    funext fun l => by rw [blk0_apply, HostArrays.sAug_apply]
  have h1 : (fun l : Fin 33 => ((iblk m c 1 t : S512x33.Idx → EReal) (ix2 p l) : EReal))
      = Siamese.withOne (fun l' => ((m ((c : Thread nD τ).loc main_arg1)) : S16384x32.Idx → EReal) (ix2 (⟨512 * t.val + p.val, by have : t.val < 32 := t.isLt; have := p.isLt; omega⟩ : Fin 16384) l')) :=
    funext fun l => by rw [blk1_apply, HostArrays.nAug_apply]
  have h2 : (fun (l : Fin 33) (k : Fin 4096) => ((iblk m c 2 t : S33x4096.Idx → EReal) (ix2 l k) : EReal))
      = Siamese.withBias (fun l' k' => ((m ((c : Thread nD τ).loc main_arg2)) : S32x4096.Idx → EReal) (ix2 l' k')) (fun k' => ((m ((c : Thread nD τ).loc main_arg3)) : S4096.Idx → EReal) (ix1 k')) :=
    funext fun l => funext fun k => by rw [blk2_apply, HostArrays.w1Aug_apply]
  have h3 : (fun (k : Fin 4096) (j : Fin 32) => ((iblk m c 3 t : S4096x32.Idx → EReal) (ix2 k j) : EReal))
      = fun k j => ((m ((c : Thread nD τ).loc main_arg4)) : S4096x32.Idx → EReal) (ix2 k j) :=
    funext fun k => funext fun j => by rw [blk3_apply, HostArrays.w2_apply]
  have h4 : (fun j : Fin 32 => ((iblk m c 4 t : S1x32.Idx → EReal) (ix2 (0 : Fin 1) j) : EReal))
      = fun j => ((m ((c : Thread nD τ).loc main_arg5)) : S32.Idx → EReal) (ix1 j) :=
    funext fun j => by rw [blk4_apply, HostArrays.b2_apply]
  have h5 : (fun (l : Fin 65) (k : Fin 4096) => ((iblk m c 5 t : S65x4096.Idx → EReal) (ix2 l k) : EReal))
      = Siamese.withBias (fun l' k' => ((m ((c : Thread nD τ).loc main_arg6)) : S64x4096.Idx → EReal) (ix2 l' k')) (fun k' => ((m ((c : Thread nD τ).loc main_arg7)) : S4096.Idx → EReal) (ix1 k')) :=
    funext fun l => funext fun k => by rw [blk5_apply, HostArrays.w3Aug_apply]
  have h6 : (fun (k : Fin 4096) (q' : Fin 128) => ((iblk m c 6 t : S4096x128.Idx → EReal) (ix2 k q') : EReal))
      = fun k q' => ((m ((c : Thread nD τ).loc main_arg8)) : S4096x128.Idx → EReal) (ix2 k q') :=
    funext fun k => funext fun q' => by rw [blk6_apply, HostArrays.w4_apply]
  have h7 : (fun q' : Fin 128 => ((iblk m c 7 t : S1x128.Idx → EReal) (ix2 (0 : Fin 1) q') : EReal))
      = fun q' => ((m ((c : Thread nD τ).loc main_arg9)) : S128.Idx → EReal) (ix1 q') :=
    funext fun q' => by rw [blk7_apply, HostArrays.b4_apply]
  rw [emb8, Body.out_apply, h0, h1, h2, h3, h4, h5, h6, h7, Siamese.kNet_eq]
  rfl

/-! ## The whole array -/

/-- The 32 blocks tile the result array, so it ends as the network of the argument arrays. -/
theorem final (c : Dev nD) : (dats m 0 c).arrAt 8 cfg0.N = result m c :=
  (dats m 0 c).arrAt_eq_of_cover 8 (result m c) (fun t _ => flushed_eq m c t) fun i => by
    have h0 : (i 0 : Nat) < 16384 := (i 0).isLt
    have h1 : (i 1 : Nat) < 128 := (i 1).isLt
    let t : Fin cfg0.N := ⟨(i 0 : Nat) / 512, by show (i 0 : Nat) / 512 < 32; omega⟩
    refine ⟨t, flush0_8 t, ?_⟩
    obtain ⟨-, -, -, -, -, -, -, -, -, -, -, -, -, -, -, -, e0, e1⟩ := idx_facts t
    have et : t.val = (i 0 : Nat) / 512 := rfl
    show i ∈ ((View.whole main_v15).slice (win0_8.rect t)).set
    rw [View.set_slice_whole, Rect.mem_set_unit]
    intro a
    match a with
    | ⟨0, _⟩ =>
      show win0_8.index t (0 : Fin 2) * 512 ≤ (i 0 : Nat) ∧ (i 0 : Nat) < win0_8.index t (0 : Fin 2) * 512 + 512
      omega
    | ⟨1, _⟩ =>
      show win0_8.index t (1 : Fin 2) * 128 ≤ (i 1 : Nat) ∧ (i 1 : Nat) < win0_8.index t (1 : Fin 2) * 128 + 128
      omega

/-- The kernel's run: every weakly fair execution terminates with the result array at the network of the argument
    arrays and the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.WholeArray

end
-- ==== Proof.lean ====
/-
  The kernel and the reference compute one function of the ten argument arrays.

  The claim: under finite inputs the three programs run (terminate, without a fault, the arguments unchanged); the
  idealized kernel is the printed kernel read at the extended reals (no rewrite was applied, so nothing is owed); and
  the idealized kernel and the idealized reference, from memories agreeing on the arguments, end with equal result
  arrays, entry by entry, as extended reals.

  The function: entry `(r, q)` of the result is the output `q` of a four-layer network on rows `r` of the two input
  arrays (NetMath.lean: two relu layers on each row, the two 32-entry feature rows laid side by side, one more relu
  layer on the 64 entries, and a last affine layer). The reference spells it so (RefNet.lean reads its result term at
  an entry). The kernel works on 32 blocks of 512 rows; in each it stacks the two inputs' rows, carries the first and
  third bias as a last row of the weight matrix against a trailing one of the input row, and accumulates each sum over
  4096 hidden units in eight chunks of 512 onto the bias (Body.lean reads the stored block at an entry; HostArrays.lean
  the arrays with the ones column and the bias rows; WholeArray.lean puts the 32 blocks together). The two
  arrangements are equal by commutativity and associativity of addition on the extended reals and `1 · b = b`
  (NetMath.lean's `kNet_eq`): no product is distributed over a sum and nothing is cancelled, so the equality holds at
  the infinities too and the finiteness of the inputs is not used.
-/
import proofs.«174498_g11802570129985_cont_fleet_79_5_alg».proof.Defs
import proofs.«174498_g11802570129985_cont_fleet_79_5_alg».proof.Proof.Gen.Kernel
import proofs.«174498_g11802570129985_cont_fleet_79_5_alg».proof.Proof.Gen.Kernel.Skeleton
import proofs.«174498_g11802570129985_cont_fleet_79_5_alg».proof.Proof.Gen.Kernel.Launch
import proofs.«174498_g11802570129985_cont_fleet_79_5_alg».proof.Proof.Gen.Kernel.Points
import proofs.«174498_g11802570129985_cont_fleet_79_5_alg».proof.Proof.Gen.Kernel.Frame
import proofs.«174498_g11802570129985_cont_fleet_79_5_alg».proof.Proof.Gen.KernelIdeal
import proofs.«174498_g11802570129985_cont_fleet_79_5_alg».proof.Proof.Gen.KernelIdeal.Skeleton
import proofs.«174498_g11802570129985_cont_fleet_79_5_alg».proof.Proof.Gen.KernelIdeal.Launch
import proofs.«174498_g11802570129985_cont_fleet_79_5_alg».proof.Proof.Gen.KernelIdeal.Points
import proofs.«174498_g11802570129985_cont_fleet_79_5_alg».proof.Proof.Gen.KernelIdeal.Frame
import proofs.«174498_g11802570129985_cont_fleet_79_5_alg».proof.Proof.Gen.ReferenceIdeal
import proofs.«174498_g11802570129985_cont_fleet_79_5_alg».proof.Proof.Gen.Pre_finite_inputs
import proofs.«174498_g11802570129985_cont_fleet_79_5_alg».proof.Proof.Gen.KernelIdeal.Value
import proofs.«174498_g11802570129985_cont_fleet_79_5_alg».proof.Proof.Gen.ReferenceIdeal.Run
import proofs.«174498_g11802570129985_cont_fleet_79_5_alg».proof.Proof.Gen.ReferenceIdeal.Read
import proofs.«174498_g11802570129985_cont_fleet_79_5_alg».proof.Proof.NetArray
import proofs.«174498_g11802570129985_cont_fleet_79_5_alg».proof.Proof.RefNet
import proofs.«174498_g11802570129985_cont_fleet_79_5_alg».proof.Proof.WholeArray
import Idealize.ShloMosaic.Adequacy
import Idealize.ShloMosaic.Init

noncomputable section

namespace Cert.Proof

open Idealize.ShloMosaic Idealize.SL.Sem Idealize.ShloMosaic.ValueIdx

/-- The printed kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to state. -/
theorem preserves : Cert.preserves_Kernel_KernelIdeal := trivial

/-- The reference's result array is the network of its argument arrays, row by row. -/
theorem ref_result (x0 : (⟨Cert.ReferenceIdeal.S16384x32, .f32⟩ : BufTy).Contents (Elt Ideal)) (x1 : (⟨Cert.ReferenceIdeal.S16384x32, .f32⟩ : BufTy).Contents (Elt Ideal)) (x2 : (⟨Cert.ReferenceIdeal.S32x4096, .f32⟩ : BufTy).Contents (Elt Ideal)) (x3 : (⟨Cert.ReferenceIdeal.S4096, .f32⟩ : BufTy).Contents (Elt Ideal)) (x4 : (⟨Cert.ReferenceIdeal.S4096x32, .f32⟩ : BufTy).Contents (Elt Ideal)) (x5 : (⟨Cert.ReferenceIdeal.S32, .f32⟩ : BufTy).Contents (Elt Ideal)) (x6 : (⟨Cert.ReferenceIdeal.S64x4096, .f32⟩ : BufTy).Contents (Elt Ideal)) (x7 : (⟨Cert.ReferenceIdeal.S4096, .f32⟩ : BufTy).Contents (Elt Ideal)) (x8 : (⟨Cert.ReferenceIdeal.S4096x128, .f32⟩ : BufTy).Contents (Elt Ideal)) (x9 : (⟨Cert.ReferenceIdeal.S128, .f32⟩ : BufTy).Contents (Elt Ideal)) :
    Cert.ReferenceIdeal.Read.val_main_v29 (F := Ideal) x0 x1 x2 x3 x4 x5 x6 x7 x8 x9
      = Siamese.netArray x0 x1 x2 x3 x4 x5 x6 x7 x8 x9 := by
  funext i
  obtain ⟨r, q, rfl⟩ : ∃ (r : Fin 16384) (q : Fin 128), i = ix2 r q := ⟨i 0, i 1, eq_ix2 i⟩
  rw [Cert.ReferenceIdeal.RefNet.ref_apply, Siamese.netArray_ix2]
  rfl

/-- From memories agreeing on the arguments both idealized programs end with the network of the argument arrays in
    their result array. -/
theorem algebraic : Cert.algebraic_KernelIdeal_ReferenceIdeal := by
  intro m ρ m' ρ' _ hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v29_eq, ref_result, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
